-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S1024x1024 : Shape := ⟨2, ![1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S64x1024x1024 .f32) (main_arg1 : IVec S1024x1024 32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  let main_c_0 : IVec S_ 32 := constantI S_ 32 0#32
  let main_v4 : IVec S1024x1024 32 := broadcastInDim S1024x1024 ![] bcast_S_S1024x1024 main_c_0
  let main_v5 : IVec S1024x1024 1 := cmpi .sge main_arg1 main_v4
  let main_c_1 : IVec S_ 1 := constantI S_ 1 1#1
  let main_v6 : IVec S_ 1 := (fun x v => Host.reduce IntOp.andi x v reducesTo_S1024x1024_S_d0_1 h_S_) main_v5 main_c_1
  let main_v7 : IVec S_ 1 := andi main_v3 main_v6
  let main_c_2 : IVec S_ 32 := constantI S_ 32 1024#32
  let main_v8 : IVec S1024x1024 32 := broadcastInDim S1024x1024 ![] bcast_S_S1024x1024 main_c_2
  let main_v9 : IVec S1024x1024 1 := cmpi .slt main_arg1 main_v8
  let main_c_3 : IVec S_ 1 := constantI S_ 1 1#1
  let main_v10 : IVec S_ 1 := (fun x v => Host.reduce IntOp.andi x v reducesTo_S1024x1024_S_d0_1 h_S_) main_v9 main_c_3
  let main_v11 : IVec S_ 1 := andi main_v7 main_v10
  main_v11
-- ==== Kernel.lean ====
abbrev S64x1024x1024 : Shape := ⟨3, ![64, 1024, 1024]⟩
abbrev S1024x1024 : Shape := ⟨2, ![1024, 1024]⟩
abbrev S2x64x1024 : Shape := ⟨3, ![2, 64, 1024]⟩
abbrev S2x1x1024 : Shape := ⟨3, ![2, 1, 1024]⟩
abbrev S2x1x1 : Shape := ⟨3, ![2, 1, 1]⟩
abbrev S64x8x1024 : Shape := ⟨3, ![64, 8, 1024]⟩
abbrev S8x1024 : Shape := ⟨2, ![8, 1024]⟩
abbrev S1x64x1024 : Shape := ⟨3, ![1, 64, 1024]⟩
abbrev S1x1x1024 : Shape := ⟨3, ![1, 1, 1024]⟩
abbrev S1x1x1 : Shape := ⟨3, ![1, 1, 1]⟩
abbrev S64x1024 : Shape := ⟨2, ![64, 1024]⟩
abbrev S1x1024 : Shape := ⟨2, ![1, 1024]⟩
abbrev S1x1 : Shape := ⟨2, ![1, 1]⟩
abbrev S64x8 : Shape := ⟨2, ![64, 8]⟩
abbrev S64 : Shape := ⟨1, ![64]⟩
abbrev S64x1 : Shape := ⟨2, ![64, 1]⟩
abbrev S1 : Shape := ⟨1, ![1]⟩
abbrev S1024x1 : Shape := ⟨2, ![1024, 1]⟩
abbrev S64x1x1024 : Shape := ⟨3, ![64, 1, 1024]⟩
abbrev S_ : Shape := ⟨0, ![]⟩
abbrev S1024 : Shape := ⟨1, ![1024]⟩

abbrev nBuf : Space → Nat
  | .hbm => 31
  | .vmem => 10
  | .smem => 0
  | _ => 0

abbrev bufTy : (tb : Table) → Fin (tcTables nBuf tb) → BufTy
  | .hbm, ⟨0, _⟩ => ⟨S64x1024x1024, .f32⟩
  | .hbm, ⟨1, _⟩ => ⟨S1024x1024, .i32⟩
  | .hbm, ⟨2, _⟩ => ⟨S2x64x1024, .f32⟩
  | .hbm, ⟨3, _⟩ => ⟨S2x1x1024, .f32⟩
  | .hbm, ⟨4, _⟩ => ⟨S2x1x1, .f32⟩
  | .hbm, ⟨5, _⟩ => ⟨S_, .f32⟩
  | .hbm, ⟨6, _⟩ => ⟨S64x1024, .f32⟩
  | .hbm, ⟨7, _⟩ => ⟨S_, .f32⟩
  | .hbm, ⟨8, _⟩ => ⟨S1x1024, .f32⟩
  | .hbm, ⟨9, _⟩ => ⟨S1024, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1024, .f32⟩
  | .hbm, ⟨14, _⟩ => ⟨S1024, .f32⟩
  | .hbm, ⟨15, _⟩ => ⟨S1x1024, .f32⟩
  | .hbm, ⟨16, _⟩ => ⟨S64x1024, .f32⟩
  | .hbm, ⟨17, _⟩ => ⟨S64x1024, .f32⟩
  | .hbm, ⟨18, _⟩ => ⟨S64x1024, .f32⟩
  | .hbm, ⟨19, _⟩ => ⟨S_, .f32⟩
  | .hbm, ⟨20, _⟩ => ⟨S_, .f32⟩
  | .hbm, ⟨21, _⟩ => ⟨S64x1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S64x8x1024, .f32⟩
  | .local _ .vmem, ⟨1, _⟩ => ⟨S64x8x1024, .f32⟩
  | .local _ .vmem, ⟨2, _⟩ => ⟨S8x1024, .i32⟩
  | .local _ .vmem, ⟨3, _⟩ => ⟨S8x1024, .i32⟩
  | .local _ .vmem, ⟨4, _⟩ => ⟨S1x64x1024, .f32⟩
  | .local _ .vmem, ⟨5, _⟩ => ⟨S1x64x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1, .f32⟩
  | .local _ .vmem, ⟨9, _⟩ => ⟨S1x1x1, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S64x8x1024_S64x8x1024_0_0_0 : ∀ a, (![0, 0, 0] : Fin 3 → Nat) a + S64x8x1024.size a ≤ S64x8x1024.size a
  h_S64x8x1024 : 0 < S64x8x1024.numel
  inb_S8x1024_S8x1024_0_0 : ∀ a, (![0, 0] : Fin 2 → Nat) a + S8x1024.size a ≤ S8x1024.size a
  h_S8x1024 : 0 < S8x1024.numel
  reduces_S64x8x1024_S64x8 : S64x8x1024.Reduces [2] S64x8
  reduces_S64x8_S64 : S64x8.Reduces [1] S64
  shapeCasts_S64_S64x1 : S64.ShapeCasts S64x1
  reduces_S64x1_S1 : S64x1.Reduces [0] S1
  shapeCasts_S1_S1x1 : S1.ShapeCasts S1x1
  iota_S1024x1_d0_w32 : S1024x1.Iotas .tc 32 [0]
  slices_S64x8x1024_o0_0_0_S64x1x1024 : S64x8x1024.Slices ![0, 0, 0] S64x1x1024
  shapeCasts_S64x1x1024_S64x1024 : S64x1x1024.ShapeCasts S64x1024
  slices_S8x1024_o0_0_S1x1024 : S8x1024.Slices ![0, 0] S1x1024
  broadcasts_S1024x1_S1024x1024 : S1024x1.Broadcasts S1024x1024
  broadcasts_S1x1024_S1024x1024 : S1x1024.Broadcasts S1024x1024
  natLt_1_32 : 1 < 32
  bitsLt_bf16_f32 : FTy.bits .bf16 < FTy.bits .f32
  slices_S64x8x1024_o0_1_0_S64x1x1024 : S64x8x1024.Slices ![0, 1, 0] S64x1x1024
  slices_S8x1024_o1_0_S1x1024 : S8x1024.Slices ![1, 0] S1x1024
  slices_S64x8x1024_o0_2_0_S64x1x1024 : S64x8x1024.Slices ![0, 2, 0] S64x1x1024
  slices_S8x1024_o2_0_S1x1024 : S8x1024.Slices ![2, 0] S1x1024
  slices_S64x8x1024_o0_3_0_S64x1x1024 : S64x8x1024.Slices ![0, 3, 0] S64x1x1024
  slices_S8x1024_o3_0_S1x1024 : S8x1024.Slices ![3, 0] S1x1024
  slices_S64x8x1024_o0_4_0_S64x1x1024 : S64x8x1024.Slices ![0, 4, 0] S64x1x1024
  slices_S8x1024_o4_0_S1x1024 : S8x1024.Slices ![4, 0] S1x1024
  slices_S64x8x1024_o0_5_0_S64x1x1024 : S64x8x1024.Slices ![0, 5, 0] S64x1x1024
  slices_S8x1024_o5_0_S1x1024 : S8x1024.Slices ![5, 0] S1x1024
  slices_S64x8x1024_o0_6_0_S64x1x1024 : S64x8x1024.Slices ![0, 6, 0] S64x1x1024
  slices_S8x1024_o6_0_S1x1024 : S8x1024.Slices ![6, 0] S1x1024
  slices_S64x8x1024_o0_7_0_S64x1x1024 : S64x8x1024.Slices ![0, 7, 0] S64x1x1024
  slices_S8x1024_o7_0_S1x1024 : S8x1024.Slices ![7, 0] S1x1024
  reducesTo_S2x64x1024_S64x1024_d0 : S2x64x1024.ReducesTo [0] S64x1024
  h_S_ : 0 < S_.numel
  reducesTo_S2x1x1024_S1x1024_d0 : S2x1x1024.ReducesTo [0] S1x1024
  shapeCasts_S1x1024_S1024 : S1x1024.ShapeCasts S1024
  reducesTo_S2x1x1_S_d0_1_2 : S2x1x1.ReducesTo [0, 1, 2] S_
  bcast_S_S1024 : S_.BroadcastsInDim S1024 (![] : Fin 0 → Fin S1024.rank)
  bcast_S1024_S1x1024_1 : S1024.BroadcastsInDim S1x1024 (![1] : Fin 1 → Fin S1x1024.rank)
  bcast_S1x1024_S64x1024_0_1 : S1x1024.BroadcastsInDim S64x1024 (![0, 1] : Fin 2 → Fin S64x1024.rank)
  reducesTo_S64x1024_S_d0_1 : S64x1024.ReducesTo [0, 1] S_
  reducesTo_S64x1024_S1024_d0 : S64x1024.ReducesTo [0] S1024
  reducesTo_S1024_S_d0 : S1024.ReducesTo [0] S_
  dot_S64x1024_S1024x1024_S64x1024_1_1_0_0_n_n_wf : DotDims.WF S64x1024 S1024x1024 S64x1024 [1] [1] [0] [0] [] []
  dot_S1x1024_S1024x1024_S1x1024_1_1_0_0_n_n_wf : DotDims.WF S1x1024 S1024x1024 S1x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8x1024.size a ≤ S64x1024x1024.size a
  hwx0_0 : ∀ i : grid0.Coords, EltTy.bits .f32 = 32 ∨ (Rect.block (s := S64x1024x1024) S64x8x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1024.size a ≤ S1024x1024.size a
  hwx0_1 : ∀ i : grid0.Coords, EltTy.bits .i32 = 32 ∨ (Rect.block (s := S1024x1024) S8x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x1024.size a ≤ S2x64x1024.size a
  hwx0_2 : ∀ i : grid0.Coords, EltTy.bits .f32 = 32 ∨ (Rect.block (s := S2x64x1024) S1x64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S2x1x1024.size a
  hwx0_3 : ∀ i : grid0.Coords, EltTy.bits .f32 = 32 ∨ (Rect.block (s := S2x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf

abbrev win0_0 : Pipeline.Window sig grid0 :=
  Pipeline.Window.ofSpec (Memref.whole main_arg0) S64x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S1024x1024 : Shape := ⟨2, ![1024, 1024]⟩
abbrev S1048576 : Shape := ⟨1, ![1048576]⟩
abbrev S64x1048576 : Shape := ⟨2, ![64, 1048576]⟩
abbrev S_ : Shape := ⟨0, ![]⟩
abbrev S1024 : Shape := ⟨1, ![1024]⟩
abbrev S1048576x1 : Shape := ⟨2, ![1048576, 1]⟩
abbrev S1048576x64 : Shape := ⟨2, ![1048576, 64]⟩
abbrev S1024x64 : Shape := ⟨2, ![1024, 64]⟩
abbrev S1024x1 : Shape := ⟨2, ![1024, 1]⟩

abbrev nBuf : Space → Nat
  | .hbm => 35
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S1024x1024, .i32⟩
  | .hbm, ⟨2, _⟩ => ⟨S1048576, .i32⟩
  | .hbm, ⟨3, _⟩ => ⟨S64x1048576, .f32⟩
  | .hbm, ⟨4, _⟩ => ⟨S_, .f32⟩
  | .hbm, ⟨5, _⟩ => ⟨S1048576, .f32⟩
  | .hbm, ⟨6, _⟩ => ⟨S_, .f32⟩
  | .hbm, ⟨7, _⟩ => ⟨S1024, .f32⟩
  | .hbm, ⟨8, _⟩ => ⟨S1048576x1, .i32⟩
  | .hbm, ⟨9, _⟩ => ⟨S1024, .f32⟩
  | .hbm, ⟨10, _⟩ => ⟨S1048576x64, .f32⟩
  | .hbm, ⟨11, _⟩ => ⟨S_, .f32⟩
  | .hbm, ⟨12, _⟩ => ⟨S1024x64, .f32⟩
  | .hbm, ⟨13, _⟩ => ⟨S1048576x1, .i32⟩
  | .hbm, ⟨14, _⟩ => ⟨S1024x64, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024x1, .f32⟩
  | .hbm, ⟨19, _⟩ => ⟨S1024x64, .f32⟩
  | .hbm, ⟨20, _⟩ => ⟨S1024x64, .f32⟩
  | .hbm, ⟨21, _⟩ => ⟨S_, .i32⟩
  | .hbm, ⟨22, _⟩ => ⟨S1048576, .i32⟩
  | .hbm, ⟨23, _⟩ => ⟨S1048576, .i1⟩
  | .hbm, ⟨24, _⟩ => ⟨S_, .i32⟩
  | .hbm, ⟨25, _⟩ => ⟨S1048576, .i32⟩
  | .hbm, ⟨26, _⟩ => ⟨S1048576, .i32⟩
  | .hbm, ⟨27, _⟩ => ⟨S1048576, .i32⟩
  | .hbm, ⟨28, _⟩ => ⟨S1048576x1, .i32⟩
  | .hbm, ⟨29, _⟩ => ⟨S1048576x64, .f32⟩
  | .hbm, ⟨30, _⟩ => ⟨S64x1048576, .f32⟩
  | .hbm, ⟨31, _⟩ => ⟨S64x1048576, .f32⟩
  | .hbm, ⟨32, _⟩ => ⟨S64x1048576, .f32⟩
  | .hbm, ⟨33, _⟩ => ⟨S_, .f32⟩
  | .hbm, ⟨34, _⟩ => ⟨S_, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  shapeCasts_S1024x1024_S1048576 : S1024x1024.ShapeCasts S1048576
  shapeCasts_S64x1024x1024_S64x1048576 : S64x1024x1024.ShapeCasts S64x1048576
  bcast_S_S1048576 : S_.BroadcastsInDim S1048576 (![] : Fin 0 → Fin S1048576.rank)
  bcast_S_S1024 : S_.BroadcastsInDim S1024 (![] : Fin 0 → Fin S1024.rank)
  bcast_S1048576_S1048576x1_0 : S1048576.BroadcastsInDim S1048576x1 (![0] : Fin 1 → Fin S1048576x1.rank)
  transposes_S64x1048576_S1048576x64_1_0 : S64x1048576.Transposes [1, 0] S1048576x64
  bcast_S_S1024x64 : S_.BroadcastsInDim S1024x64 (![] : Fin 0 → Fin S1024x64.rank)
  bcast_S1024_S1024x1_0 : S1024.BroadcastsInDim S1024x1 (![0] : Fin 1 → Fin S1024x1.rank)
  bcast_S1024x1_S1024x64_0_1 : S1024x1.BroadcastsInDim S1024x64 (![0, 1] : Fin 2 → Fin S1024x64.rank)
  transposes_S1048576x64_S64x1048576_1_0 : S1048576x64.Transposes [1, 0] S64x1048576
  reducesTo_S64x1048576_S_d0_1 : S64x1048576.ReducesTo [0, 1] S_
  h_S_ : 0 < S_.numel
  scatter_S1024_S1048576x1_S1048576_n_0_0_1_wf : ScatterDims.WF S1024 S1048576x1 S1048576 [] [0] [0] 1
  scatter_S1024x64_S1048576x1_S1048576x64_1_0_0_1_wf : ScatterDims.WF S1024x64 S1048576x1 S1048576x64 [1] [0] [0] 1
  gather_S1024x64_S1048576x1_S1048576x64_1_0_n_n_0_1_164_wf : GatherDims.WF S1024x64 S1048576x1 S1048576x64 [1] [0] [] [0] [] 1 ![1, 64]

variable [Facts₀]

def scatter_S1024_S1048576x1_S1048576_n_0_0_1 : ScatterDims S1024 S1048576x1 S1048576 where
  updateWindowDims := []
  insertedWindowDims := [0]
  scatterDimsToOperandDims := [0]
  indexVectorDim := 1
  wf := scatter_S1024_S1048576x1_S1048576_n_0_0_1_wf
def scatter_S1024x64_S1048576x1_S1048576x64_1_0_0_1 : ScatterDims S1024x64 S1048576x1 S1048576x64 where
  updateWindowDims := [1]
  insertedWindowDims := [0]
  scatterDimsToOperandDims := [0]
  indexVectorDim := 1
  wf := scatter_S1024x64_S1048576x1_S1048576x64_1_0_0_1_wf
def gather_S1024x64_S1048576x1_S1048576x64_1_0_n_n_0_1_164 : GatherDims S1024x64 S1048576x1 S1048576x64 where
  offsetDims := [1]
  collapsedSliceDims := [0]
  operandBatchingDims := []
  startIndicesBatchingDims := []
  startIndexMap := [0]
  indexVectorDim := 1
  sliceSizes := ![1, 64]
  wf := gather_S1024x64_S1048576x1_S1048576x64_1_0_n_n_0_1_164_wf

class Facts : Prop extends Facts₀ where

variable [Facts]
-- ==== Proof.KPieces.lean ====
/-
  What one grid point of the kernel leaves in its three accumulators, as functions of the point's two input tiles
  and of what the accumulators held before.

  A point holds eight image rows.  The body adds to the per-label sums, row after row, the product of the row's
  64 x 1024 values with the row's 1024 x 1024 table "label k = label of column w" (sumsStep), adds to the per-label
  sizes the product of a row of ones with the same table (cntStep), and adds to the running sum of squares the tile's
  squares summed over columns, rows and channels (sqStep).  At the first point of each half of the rows the
  accumulators are first reset to zero, so there the previous contents are the zero arrays.  Every store writes its
  whole buffer, so the last store of a buffer decides its contents and every load reads what the store before it
  wrote.
-/
import proofs.«424122_j85469849190579_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {Val : EltTy → Type} {S : Shape} {e : EltTy}

/-- A load of a whole buffer after a list of stores whose last wrote the whole buffer reads that store's value. -/
theorem readCov_cons_whole [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

theorem hz3 : (![0, 0, 0] : Fin 3 → Nat) = fun _ => 0 := funext fun a => by fin_cases a <;> rfl
theorem hz2 : (![0, 0] : Fin 2 → Nat) = fun _ => 0 := funext fun a => by fin_cases a <;> rfl

variable {F : FTy → Type} [FloatOps F]

/-- The column of the 1024 labels 0, 1, …, 1023. -/
abbrev labels : IVec S1024x1 32 := iota .tc S1024x1 32 [0] iota_S1024x1_d0_w32

/-- The per-label sums after a point's eight rows, over what they held before. -/
def sumsStep (x0 : Vec F S64x8x1024 .f32) (x1 : Vec F S8x1024 .i32) (acc : Vec F S1x64x1024 .f32) : Vec F S1x64x1024 .f32 :=
  k0_pay31 x0 x1 labels (k0_pay28 (k0_pay27 x0 x1 labels (k0_pay24 x0 x1 labels (k0_pay21 x0 x1 labels
    (k0_pay18 (k0_pay17 x0 x1 labels (k0_pay14 x0 x1 labels (k0_pay11 x0 x1 labels (k0_pay8 (k0_pay7 x0 x1 acc))))))))))

/-- The per-label sizes after a point's eight rows, over what they held before. -/
def cntStep (x1 : Vec F S8x1024 .i32) (acc : Vec F S1x1x1024 .f32) : Vec F S1x1x1024 .f32 :=
  k0_pay32 x1 labels k0_pay5 (k0_pay29 k0_pay5 (k0_pay26 x1 labels) (k0_pay25 x1 labels k0_pay5 (k0_pay22 x1 labels k0_pay5
    (k0_pay19 k0_pay5 (k0_pay16 x1 labels) (k0_pay15 x1 labels k0_pay5 (k0_pay12 x1 labels k0_pay5
      (k0_pay9 k0_pay5 (k0_pay6 x1) acc)))))))

/-- The running sum of squares after a point, over what it held before. -/
def sqStep (x0 : Vec F S64x8x1024 .f32) (acc : Vec F S1x1x1 .f32) : Vec F S1x1x1 .f32 := k0_pay4 x0 acc

section
variable (c : Dev nD) (i : grid0.Coords) (arg2 : Memref sig .tc .vmem S64x8x1024 .f32) (harg2 : arg2.IsWhole)
  (arg3 : Memref sig .tc .vmem S8x1024 .i32) (harg3 : arg3.IsWhole) (arg4 : Memref sig .tc .vmem S1x64x1024 .f32) (harg4 : arg4.IsWhole)
  (arg5 : Memref sig .tc .vmem S1x1x1024 .f32) (harg5 : arg5.IsWhole) (arg6 : Memref sig .tc .vmem S1x1x1 .f32) (harg6 : arg6.IsWhole)
  (x0 : Vec F S64x8x1024 .f32) (x1 : Vec F S8x1024 .i32)

/-- A point that is not the first of its half: the sums go on from what the point before left. -/
theorem out_B_2 (hc0 : ¬cond0_0 i) (xo2 : Vec F S1x64x1024 .f32) (xo3 : Vec F S1x1x1024 .f32) (xo4 : Vec F S1x1x1 .f32) :
    out0_B_2 c i arg2 harg2 arg3 harg3 arg4 harg4 arg5 harg5 arg6 harg6 hc0 x0 x1 xo2 xo3 xo4 = sumsStep x0 x1 xo2 := by
  unfold out0_B_2
  rw [View.read_writes_eq_canon _ _ _ (cover0_B_2 c i arg2 harg2 arg3 harg3 arg4 harg4 arg5 harg5 arg6 harg6 hc0 x0 x1 xo2 xo3 xo4)]
  unfold kernelRun0_B
  dsimp only
  sl_unfold_words
  simp only [View.canon_cons_unit_zero (S := S1x64x1024) hz3, readCov_cons_whole (S := S1x64x1024) _ hz3, View.readAt_eq_ld,
    harg2.read_unread, harg3.read_unread, harg4.read_unread, View.ld_unit_zero (S := S64x8x1024) hz3,
    View.ld_unit_zero (S := S8x1024) hz2, View.ld_unit_zero (S := S1x64x1024) hz3]
  rfl

/-- The same for the sizes. -/
theorem out_B_3 (hc0 : ¬cond0_0 i) (xo2 : Vec F S1x64x1024 .f32) (xo3 : Vec F S1x1x1024 .f32) (xo4 : Vec F S1x1x1 .f32) :
    out0_B_3 c i arg2 harg2 arg3 harg3 arg4 harg4 arg5 harg5 arg6 harg6 hc0 x0 x1 xo2 xo3 xo4 = cntStep x1 xo3 := by
  unfold out0_B_3
  rw [View.read_writes_eq_canon _ _ _ (cover0_B_3 c i arg2 harg2 arg3 harg3 arg4 harg4 arg5 harg5 arg6 harg6 hc0 x0 x1 xo2 xo3 xo4)]
  unfold kernelRun0_B
  dsimp only
  sl_unfold_words
  simp only [View.canon_cons_unit_zero (S := S1x1x1024) hz3, readCov_cons_whole (S := S1x1x1024) _ hz3, View.readAt_eq_ld,
    harg2.read_unread, harg3.read_unread, harg5.read_unread, View.ld_unit_zero (S := S64x8x1024) hz3,
    View.ld_unit_zero (S := S8x1024) hz2, View.ld_unit_zero (S := S1x1x1024) hz3]
  rfl

/-- The same for the sum of squares. -/
theorem out_B_4 (hc0 : ¬cond0_0 i) (xo2 : Vec F S1x64x1024 .f32) (xo3 : Vec F S1x1x1024 .f32) (xo4 : Vec F S1x1x1 .f32) :
    out0_B_4 c i arg2 harg2 arg3 harg3 arg4 harg4 arg5 harg5 arg6 harg6 hc0 x0 x1 xo2 xo3 xo4 = sqStep x0 xo4 := by
  unfold out0_B_4
  rw [View.read_writes_eq_canon _ _ _ (cover0_B_4 c i arg2 harg2 arg3 harg3 arg4 harg4 arg5 harg5 arg6 harg6 hc0 x0 x1 xo2 xo3 xo4)]
  unfold kernelRun0_B
  dsimp only
  sl_unfold_words
  simp only [View.canon_cons_unit_zero (S := S1x1x1) hz3, readCov_cons_whole (S := S1x1x1) _ hz3, View.readAt_eq_ld,
    harg2.read_unread, harg3.read_unread, harg6.read_unread, View.ld_unit_zero (S := S64x8x1024) hz3,
    View.ld_unit_zero (S := S8x1024) hz2, View.ld_unit_zero (S := S1x1x1) hz3]
  rfl

/-- The first point of a half: the sums start from the zero array. -/
theorem out_A_2 (hc0 : cond0_0 i) :
    out0_A_2 c i arg2 harg2 arg3 harg3 arg4 harg4 arg5 harg5 arg6 harg6 hc0 x0 x1 = sumsStep x0 x1 k0_pay1 := by
  unfold out0_A_2
  rw [View.read_writes_eq_canon _ _ _ (cover0_A_2 c i arg2 harg2 arg3 harg3 arg4 harg4 arg5 harg5 arg6 harg6 hc0 x0 x1)]
  unfold kernelRun0_A
  dsimp only
  sl_unfold_words
  simp only [View.canon_cons_unit_zero (S := S1x64x1024) hz3, readCov_cons_whole (S := S1x64x1024) _ hz3, View.readAt_eq_ld,
    harg2.read_unread, harg3.read_unread, View.ld_unit_zero (S := S64x8x1024) hz3,
    View.ld_unit_zero (S := S8x1024) hz2, View.ld_unit_zero (S := S1x64x1024) hz3]
  rfl

/-- The same for the sizes. -/
theorem out_A_3 (hc0 : cond0_0 i) :
    out0_A_3 c i arg2 harg2 arg3 harg3 arg4 harg4 arg5 harg5 arg6 harg6 hc0 x0 x1 = cntStep x1 k0_pay2 := by
  unfold out0_A_3
  rw [View.read_writes_eq_canon _ _ _ (cover0_A_3 c i arg2 harg2 arg3 harg3 arg4 harg4 arg5 harg5 arg6 harg6 hc0 x0 x1)]
  unfold kernelRun0_A
  dsimp only
  sl_unfold_words
  simp only [View.canon_cons_unit_zero (S := S1x1x1024) hz3, readCov_cons_whole (S := S1x1x1024) _ hz3, View.readAt_eq_ld,
    harg2.read_unread, harg3.read_unread, View.ld_unit_zero (S := S64x8x1024) hz3,
    View.ld_unit_zero (S := S8x1024) hz2, View.ld_unit_zero (S := S1x1x1024) hz3]
  rfl

/-- The same for the sum of squares. -/
theorem out_A_4 (hc0 : cond0_0 i) :
    out0_A_4 c i arg2 harg2 arg3 harg3 arg4 harg4 arg5 harg5 arg6 harg6 hc0 x0 x1 = sqStep x0 k0_pay3 := by
  unfold out0_A_4
  rw [View.read_writes_eq_canon _ _ _ (cover0_A_4 c i arg2 harg2 arg3 harg3 arg4 harg4 arg5 harg5 arg6 harg6 hc0 x0 x1)]
  unfold kernelRun0_A
  dsimp only
  sl_unfold_words
  simp only [View.canon_cons_unit_zero (S := S1x1x1) hz3, readCov_cons_whole (S := S1x1x1) _ hz3, View.readAt_eq_ld,
    harg2.read_unread, harg3.read_unread, View.ld_unit_zero (S := S64x8x1024) hz3,
    View.ld_unit_zero (S := S8x1024) hz2, View.ld_unit_zero (S := S1x1x1) hz3]
  rfl

end

end Cert.KernelIdeal.Pieces

end
-- ==== Proof.RowTerms.lean ====
/-
  One point's contribution to the three accumulators, written over the point's two tiles: x0 holds the point's
  eight rows of all 64 channels (channel, row, column), x1 the labels of those eight rows (row, column).
    rowTerm x0 x1 r d k : the sum of channel d over the pixels of row r labelled k,
    cntTerm x1 r k      : the number of pixels of row r labelled k,
    sqTerm x0           : the sum of the tile's squares.
-/
import proofs.«424122_j85469849190579_3_alg».proof.KernelIdeal
import Idealize.ShloMosaic.Lib.ValueIdx
import Idealize.ShloMosaic.PureOps.Ideal

noncomputable section

open scoped BigOperators

namespace Cert.KernelIdeal.RowTerms

open Idealize.ShloMosaic Idealize.ShloMosaic.ValueIdx Cert.KernelIdeal

/-- Row r's share of label k's sum in channel d. -/
def rowTerm (x0 : Vec Ideal S64x8x1024 .f32) (x1 : Vec Ideal S8x1024 .i32) (r : Fin 8) (d : Fin 64) (k : Fin 1024) : EReal :=
  ∑ w : Fin 1024, if (x1 (ix2 r w)).toNat = k.val then x0 (ix3 d r w) else 0

/-- Row r's share of label k's size. -/
def cntTerm (x1 : Vec Ideal S8x1024 .i32) (r : Fin 8) (k : Fin 1024) : EReal :=
  ∑ w : Fin 1024, if (x1 (ix2 r w)).toNat = k.val then (1 : EReal) else 0

/-- The tile's share of the sum of squares: channels, then rows, then columns. -/
def sqTerm (x0 : Vec Ideal S64x8x1024 .f32) : EReal :=
  ∑ d : Fin 64, ∑ r : Fin 8, ∑ w : Fin 1024, x0 (ix3 d r w) * x0 (ix3 d r w)

end Cert.KernelIdeal.RowTerms

end
-- ==== Proof.RowSums.lean ====
/-
  One grid point's update of the per-label sums, read at an index, at the ideal values.

  A point holds eight image rows.  For row r the body forms the 1024 x 1024 table whose entry (k, w) is 1 when the
  label of column w in row r is k and 0 otherwise, multiplies the row's 64 x 1024 values by it along the columns, and
  adds the product to the sums.  At the ideal values a change of float format is the identity, the words 0 and 1 convert to
  the reals 0 and 1, and x * 1 = x, x * 0 = 0 hold for every extended real, so entry (d, k) of the product is the sum of
  channel d over the columns of row r labelled k: rowTerm x0 x1 r d k.  The labels column is 0, 1, …, 1023, so its
  entry k is the 32-bit word k, and that word equals a word y exactly when y read as a natural number is k
  (k < 1024 < 2 ^ 32).  Eight rows one after the other add the eight shares.
-/
import proofs.«424122_j85469849190579_3_alg».proof.Proof.KPieces
import proofs.«424122_j85469849190579_3_alg».proof.Proof.RowTerms
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.RowSums

open Cert.KernelIdeal Cert.KernelIdeal.Gen Cert.KernelIdeal.Pieces Cert.KernelIdeal.RowTerms Idealize.ShloMosaic Idealize.ShloMosaic.ValueIdx

/-- The labels column read at row k is the word k. -/
theorem labels_apply (k : Fin 1024) (z : Fin 1) : labels (ix2 k z) = BitVec.ofNat 32 k.val :=
  iota_single_apply .tc S1024x1 32 0 iota_S1024x1_d0_w32 (ix2 k z)

/-- The labels column spread over the columns reads, at (k, w), the word k. -/
theorem labelsTable_apply (k w : Fin 1024) :
    broadcastTo S1024x1024 labels broadcasts_S1024x1_S1024x1024 (ix2 k w) = BitVec.ofNat 32 k.val := by
  refine (broadcastTo_apply labels broadcasts_S1024x1_S1024x1024 (ix2 k w) (ix2 k (0 : Fin 1)) fun ax => ?_).trans
    (labels_apply k 0)
  match ax with
  | ⟨0, _⟩ => rfl
  | ⟨1, _⟩ => rfl

/-- Comparing the word k (k below 1024) with a 32-bit word y, widened and read as a real: 1 if y is k, else 0. -/
theorem onehot_word (k : Fin 1024) (y : BitVec 32) :
    (FloatOps.sitofp (F := Ideal) .f32 ((IntOp.cmpi .eq (BitVec.ofNat 32 k.val) y).setWidth 32) : EReal)
      = if y.toNat = k.val then 1 else 0 := by
  have hk : k.val < 2 ^ 32 := lt_of_lt_of_le k.isLt (by norm_num)
  by_cases h : y.toNat = k.val
  · have hy : BitVec.ofNat 32 k.val = y := by rw [← h, BitVec.ofNat_toNat, BitVec.setWidth_eq]
    rw [if_pos h, hy]
    have : IntOp.cmpi .eq y y = 1#1 := by simp [IntOp.cmpi]
    rw [this]
    show (((1#1 : BitVec 1).setWidth 32).toInt : ℝ) = (1 : EReal)
    norm_num
  · have hy : BitVec.ofNat 32 k.val ≠ y := fun e => h (by rw [← e, BitVec.toNat_ofNat, Nat.mod_eq_of_lt hk])
    rw [if_neg h]
    have : IntOp.cmpi .eq (BitVec.ofNat 32 k.val) y = 0#1 := by
      show BitVec.ofBool (BitVec.ofNat 32 k.val == y) = 0#1
      rw [beq_eq_false_iff_ne.mpr hy]; rfl
    rw [this]
    show (((0#1 : BitVec 1).setWidth 32).toInt : ℝ) = (0 : EReal)
    norm_num

/-! The contraction of the row product: both operands are read along their axis 1. -/

theorem lhs_row_0 (i : S64x1024.Idx) (q : dot_S64x1024_S1024x1024_S64x1024_1_1_0_0_n_n.contr.Idx) :
    (dot_S64x1024_S1024x1024_S64x1024_1_1_0_0_n_n.lhsIdx i q 0).val = (i 0).val := by
  unfold DotDims.lhsIdx
  rw [dif_neg (show ¬(0 : Fin S64x1024.rank) ∈ dot_S64x1024_S1024x1024_S64x1024_1_1_0_0_n_n.lhsBatch by decide), dif_pos (show (0 : Fin S64x1024.rank) ∈ dot_S64x1024_S1024x1024_S64x1024_1_1_0_0_n_n.lhsNonContracting by decide)]
  rfl
theorem lhs_row_1 (i : S64x1024.Idx) (q : dot_S64x1024_S1024x1024_S64x1024_1_1_0_0_n_n.contr.Idx) :
    (dot_S64x1024_S1024x1024_S64x1024_1_1_0_0_n_n.lhsIdx i q 1).val = (q ⟨0, by decide⟩).val :=
  dot_S64x1024_S1024x1024_S64x1024_1_1_0_0_n_n.lhsIdx_val_of_single rfl i q
theorem rhs_row_0 (i : S64x1024.Idx) (q : dot_S64x1024_S1024x1024_S64x1024_1_1_0_0_n_n.contr.Idx) :
    (dot_S64x1024_S1024x1024_S64x1024_1_1_0_0_n_n.rhsIdx i q 0).val = (i 1).val := by
  unfold DotDims.rhsIdx
  rw [dif_neg (show ¬(0 : Fin S1024x1024.rank) ∈ dot_S64x1024_S1024x1024_S64x1024_1_1_0_0_n_n.rhsBatch by decide), dif_pos (show (0 : Fin S1024x1024.rank) ∈ dot_S64x1024_S1024x1024_S64x1024_1_1_0_0_n_n.rhsNonContracting by decide)]
  rfl
theorem rhs_row_1 (i : S64x1024.Idx) (q : dot_S64x1024_S1024x1024_S64x1024_1_1_0_0_n_n.contr.Idx) :
    (dot_S64x1024_S1024x1024_S64x1024_1_1_0_0_n_n.rhsIdx i q 1).val = (q ⟨0, by decide⟩).val :=
  dot_S64x1024_S1024x1024_S64x1024_1_1_0_0_n_n.rhsIdx_val_of_single rfl i q

/-- The row product into the zero accumulator, read at (d, k): the sum over the columns w of a(d, w) * t(k, w). -/
theorem rowProduct_apply (a : FVec Ideal S64x1024 .bf16) (t : FVec Ideal S1024x1024 .bf16) (d : Fin 64) (k : Fin 1024) :
    matmul dot_S64x1024_S1024x1024_S64x1024_1_1_0_0_n_n none a t (constant (F := Ideal) S64x1024 .f32 0x00000000#32) (ix2 d k)
      = ∑ w : Fin 1024, a (ix2 d w) * t (ix2 k w) := by
  show FloatOps.matmul dot_S64x1024_S1024x1024_S64x1024_1_1_0_0_n_n none a t (constant (F := Ideal) S64x1024 .f32 0x00000000#32) (ix2 d k) = _
  rw [Ideal.matmul_constant_zero_apply, ← Equiv.sum_comp (contrEquiv1 dot_S64x1024_S1024x1024_S64x1024_1_1_0_0_n_n 1024 rfl rfl).symm]
  refine Finset.sum_congr rfl fun w _ => ?_
  have hk := contrEquiv1_symm_val dot_S64x1024_S1024x1024_S64x1024_1_1_0_0_n_n 1024 rfl rfl w
  have el : dot_S64x1024_S1024x1024_S64x1024_1_1_0_0_n_n.lhsIdx (ix2 d k) ((contrEquiv1 dot_S64x1024_S1024x1024_S64x1024_1_1_0_0_n_n 1024 rfl rfl).symm w) = ix2 d w :=
    funext fun ax => Fin.ext (by
      match ax with
      | ⟨0, _⟩ => exact lhs_row_0 _ _
      | ⟨1, _⟩ => exact (lhs_row_1 _ _).trans hk)
  have er : dot_S64x1024_S1024x1024_S64x1024_1_1_0_0_n_n.rhsIdx (ix2 d k) ((contrEquiv1 dot_S64x1024_S1024x1024_S64x1024_1_1_0_0_n_n 1024 rfl rfl).symm w) = ix2 k w :=
    funext fun ax => Fin.ext (by
      match ax with
      | ⟨0, _⟩ => exact rhs_row_0 _ _
      | ⟨1, _⟩ => exact (rhs_row_1 _ _).trans hk)
  rw [el, er]

/-! One row of labels as a table, and one row's update of the sums, over variables. -/

/-- The table of a row of labels v: entry (k, w) compares label k with the label of column w. -/
def rowTable (v : IVec S1x1024 32) : FVec Ideal S1024x1024 .bf16 :=
  truncf .bf16 (sitofp .f32 (extui 32 (cmpi .eq (broadcastTo S1024x1024 labels broadcasts_S1024x1_S1024x1024)
    (broadcastTo S1024x1024 v broadcasts_S1x1024_S1024x1024)) natLt_1_32)) bitsLt_bf16_f32

/-- Entry (k, w) of a row's table is 1 if column w carries label k, else 0. -/
theorem rowTable_apply (v : IVec S1x1024 32) (k w : Fin 1024) :
    rowTable v (ix2 k w) = if (v (ix2 (0 : Fin 1) w)).toNat = k.val then 1 else 0 := by
  show (FloatOps.sitofp (F := Ideal) .f32 ((IntOp.cmpi .eq (broadcastTo S1024x1024 labels broadcasts_S1024x1_S1024x1024 (ix2 k w))
      (broadcastTo S1024x1024 v broadcasts_S1x1024_S1024x1024 (ix2 k w))).setWidth 32) : EReal) = _
  rw [labelsTable_apply, broadcastTo_1b_ab_apply]
  exact onehot_word k _

/-- A 64 x 1 x 1024 array viewed as 64 x 1024 reads, at (d, w), the array at (d, 0, w). -/
theorem squeezeRow_apply {α : Type} (a : S64x1x1024.Idx → α) (d : Fin 64) (w : Fin 1024) :
    shapeCast S64x1024 a shapeCasts_S64x1x1024_S64x1024 (ix2 d w) = a (ix3 d (0 : Fin 1) w) :=
  shapeCast_apply a shapeCasts_S64x1x1024_S64x1024 _ _ (by
    rw [Shape.rowMajor_val_three, Shape.rowMajor_val_two]
    show (d.val * 1 + 0) * 1024 + w.val = d.val * 1024 + w.val
    rw [Nat.mul_one, Nat.add_zero])

/-- One row's update of the sums: what was there, plus the row's values times the row's table. -/
def rowStep (a : FVec Ideal S64x1x1024 .f32) (v : IVec S1x1024 32) (acc : Vec Ideal S1x64x1024 .f32) : FVec Ideal S64x1024 .f32 :=
  addf (shapeCast S64x1024 acc shapeCasts_S1x64x1024_S64x1024)
    (matmul dot_S64x1024_S1024x1024_S64x1024_1_1_0_0_n_n none
      (truncf .bf16 (shapeCast S64x1024 a shapeCasts_S64x1x1024_S64x1024) bitsLt_bf16_f32) (rowTable v)
      (constant (F := Ideal) S64x1024 .f32 0x00000000#32))

/-- Read at (d, k): what was there plus the sum of the row's channel-d values over the columns labelled k. -/
theorem rowStep_apply (a : FVec Ideal S64x1x1024 .f32) (v : IVec S1x1024 32) (acc : Vec Ideal S1x64x1024 .f32)
    (d : Fin 64) (k : Fin 1024) :
    rowStep a v acc (ix2 d k) = acc (ix3 (0 : Fin 1) d k)
      + ∑ w : Fin 1024, if (v (ix2 (0 : Fin 1) w)).toNat = k.val then a (ix3 d (0 : Fin 1) w) else 0 := by
  show shapeCast S64x1024 acc shapeCasts_S1x64x1024_S64x1024 (ix2 d k)
    + matmul dot_S64x1024_S1024x1024_S64x1024_1_1_0_0_n_n none
      (truncf .bf16 (shapeCast S64x1024 a shapeCasts_S64x1x1024_S64x1024) bitsLt_bf16_f32) (rowTable v)
      (constant (F := Ideal) S64x1024 .f32 0x00000000#32) (ix2 d k) = _
  rw [rowProduct_apply, shapeCast_1ab_ab_apply]
  refine congrArg (acc (ix3 (0 : Fin 1) d k) + ·) (Finset.sum_congr rfl fun w _ => ?_)
  rw [rowTable_apply]
  show shapeCast S64x1024 a shapeCasts_S64x1x1024_S64x1024 (ix2 d w) * _ = _
  rw [squeezeRow_apply]
  split_ifs
  · exact mul_one _
  · exact mul_zero _

/-- Row r of the point's two tiles, updated into the sums and stored back as 1 x 64 x 1024: at (0, d, k) what was there
    plus row r's share of label k's sum in channel d. -/
theorem rowUpdate_apply (o : Nat) (r : Fin 8) (hr : r.val = o) (x0 : Vec Ideal S64x8x1024 .f32) (x1 : Vec Ideal S8x1024 .i32)
    (acc : Vec Ideal S1x64x1024 .f32) (h0 : S64x8x1024.Slices ![0, o, 0] S64x1x1024) (h1 : S8x1024.Slices ![o, 0] S1x1024)
    (d : Fin 64) (k : Fin 1024) :
    shapeCast S1x64x1024 (rowStep (extractStridedSlice S64x1x1024 ![0, o, 0] x0 h0) (extractStridedSlice S1x1024 ![o, 0] x1 h1) acc)
      shapeCasts_S64x1024_S1x64x1024 (ix3 (0 : Fin 1) d k) = acc (ix3 (0 : Fin 1) d k) + rowTerm x0 x1 r d k := by
  rw [shapeCast_ab_1ab_apply, rowStep_apply]
  refine congrArg (acc (ix3 (0 : Fin 1) d k) + ·) (Finset.sum_congr rfl fun w _ => ?_)
  rw [slice2_axis0_apply o x1 h1 (0 : Fin 1) w r (by rw [hr]; rfl),
    slice3_axis1_apply o x0 h0 d (0 : Fin 1) w r (by rw [hr]; rfl)]

/-! The eight rows of a point, each as the payload that stores it. -/

theorem row0_apply (x0 : Vec Ideal S64x8x1024 .f32) (x1 : Vec Ideal S8x1024 .i32) (acc : Vec Ideal S1x64x1024 .f32)
    (d : Fin 64) (k : Fin 1024) :
    k0_pay8 (k0_pay7 (F := Ideal) x0 x1 acc) (ix3 (0 : Fin 1) d k) = acc (ix3 (0 : Fin 1) d k) + rowTerm x0 x1 0 d k :=
  rowUpdate_apply 0 0 rfl x0 x1 acc slices_S64x8x1024_o0_0_0_S64x1x1024 slices_S8x1024_o0_0_S1x1024 d k

theorem row1_apply (x0 : Vec Ideal S64x8x1024 .f32) (x1 : Vec Ideal S8x1024 .i32) (acc : Vec Ideal S1x64x1024 .f32)
    (d : Fin 64) (k : Fin 1024) :
    k0_pay11 (F := Ideal) x0 x1 labels acc (ix3 (0 : Fin 1) d k) = acc (ix3 (0 : Fin 1) d k) + rowTerm x0 x1 1 d k :=
  rowUpdate_apply 1 1 rfl x0 x1 acc slices_S64x8x1024_o0_1_0_S64x1x1024 slices_S8x1024_o1_0_S1x1024 d k

theorem row2_apply (x0 : Vec Ideal S64x8x1024 .f32) (x1 : Vec Ideal S8x1024 .i32) (acc : Vec Ideal S1x64x1024 .f32)
    (d : Fin 64) (k : Fin 1024) :
    k0_pay14 (F := Ideal) x0 x1 labels acc (ix3 (0 : Fin 1) d k) = acc (ix3 (0 : Fin 1) d k) + rowTerm x0 x1 2 d k :=
  rowUpdate_apply 2 2 rfl x0 x1 acc slices_S64x8x1024_o0_2_0_S64x1x1024 slices_S8x1024_o2_0_S1x1024 d k

theorem row3_apply (x0 : Vec Ideal S64x8x1024 .f32) (x1 : Vec Ideal S8x1024 .i32) (acc : Vec Ideal S1x64x1024 .f32)
    (d : Fin 64) (k : Fin 1024) :
    k0_pay18 (k0_pay17 (F := Ideal) x0 x1 labels acc) (ix3 (0 : Fin 1) d k) = acc (ix3 (0 : Fin 1) d k) + rowTerm x0 x1 3 d k :=
  rowUpdate_apply 3 3 rfl x0 x1 acc slices_S64x8x1024_o0_3_0_S64x1x1024 slices_S8x1024_o3_0_S1x1024 d k

theorem row4_apply (x0 : Vec Ideal S64x8x1024 .f32) (x1 : Vec Ideal S8x1024 .i32) (acc : Vec Ideal S1x64x1024 .f32)
    (d : Fin 64) (k : Fin 1024) :
    k0_pay21 (F := Ideal) x0 x1 labels acc (ix3 (0 : Fin 1) d k) = acc (ix3 (0 : Fin 1) d k) + rowTerm x0 x1 4 d k :=
  rowUpdate_apply 4 4 rfl x0 x1 acc slices_S64x8x1024_o0_4_0_S64x1x1024 slices_S8x1024_o4_0_S1x1024 d k

theorem row5_apply (x0 : Vec Ideal S64x8x1024 .f32) (x1 : Vec Ideal S8x1024 .i32) (acc : Vec Ideal S1x64x1024 .f32)
    (d : Fin 64) (k : Fin 1024) :
    k0_pay24 (F := Ideal) x0 x1 labels acc (ix3 (0 : Fin 1) d k) = acc (ix3 (0 : Fin 1) d k) + rowTerm x0 x1 5 d k :=
  rowUpdate_apply 5 5 rfl x0 x1 acc slices_S64x8x1024_o0_5_0_S64x1x1024 slices_S8x1024_o5_0_S1x1024 d k

theorem row6_apply (x0 : Vec Ideal S64x8x1024 .f32) (x1 : Vec Ideal S8x1024 .i32) (acc : Vec Ideal S1x64x1024 .f32)
    (d : Fin 64) (k : Fin 1024) :
    k0_pay28 (k0_pay27 (F := Ideal) x0 x1 labels acc) (ix3 (0 : Fin 1) d k) = acc (ix3 (0 : Fin 1) d k) + rowTerm x0 x1 6 d k :=
  rowUpdate_apply 6 6 rfl x0 x1 acc slices_S64x8x1024_o0_6_0_S64x1x1024 slices_S8x1024_o6_0_S1x1024 d k

theorem row7_apply (x0 : Vec Ideal S64x8x1024 .f32) (x1 : Vec Ideal S8x1024 .i32) (acc : Vec Ideal S1x64x1024 .f32)
    (d : Fin 64) (k : Fin 1024) :
    k0_pay31 (F := Ideal) x0 x1 labels acc (ix3 (0 : Fin 1) d k) = acc (ix3 (0 : Fin 1) d k) + rowTerm x0 x1 7 d k :=
  rowUpdate_apply 7 7 rfl x0 x1 acc slices_S64x8x1024_o0_7_0_S64x1x1024 slices_S8x1024_o7_0_S1x1024 d k

/-- One grid point's update of the per-label sums: what was there plus the eight rows' shares. -/
theorem sumsStep_apply (x0 : Vec Ideal S64x8x1024 .f32) (x1 : Vec Ideal S8x1024 .i32) (acc : Vec Ideal S1x64x1024 .f32) (d : Fin 64) (k : Fin 1024) :
    sumsStep (F := Ideal) x0 x1 acc (ix3 (0 : Fin 1) d k) = acc (ix3 (0 : Fin 1) d k) + ∑ r : Fin 8, rowTerm x0 x1 r d k := by
  unfold sumsStep
  rw [row7_apply, row6_apply, row5_apply, row4_apply, row3_apply, row2_apply, row1_apply, row0_apply, Fin.sum_univ_eight]
  simp only [add_assoc]

/-- The array the first point of a half starts from is zero everywhere. -/
theorem pay1_apply (j : S1x64x1024.Idx) : k0_pay1 (F := Ideal) j = 0 :=
  Ideal.ofBits_zero_f32

end Cert.KernelIdeal.RowSums

end
-- ==== Proof.RowCounts.lean ====
/-
  One grid point's update of the per-label sizes and of the running sum of squares, read entry by entry over the
  extended reals.

  Sizes.  A point holds eight rows of labels.  For each row the body builds the 1024 x 1024 table whose entry (k, w)
  is 1 when the row's pixel w carries label k and 0 otherwise: the comparison bit of the word of k with the pixel's
  word, widened to 32 bits and converted to a number (the change of float format after it is the identity here).
  It multiplies the row of ones with that table along the columns of both and adds the product to the sizes.
  Entry k of the product is ∑ w, 1 * [pixel w is labelled k], the number of the row's pixels labelled k, so the
  eight rows in turn leave the old size plus the sum over the rows of those numbers.  The word of k equals a
  pixel's word exactly when the pixel's word, read as a natural number, is k, because k < 1024 < 2^32.

  Sum of squares.  The tile's squares are summed along the columns, then along the rows, then along the channels,
  and the total is added to the old value: old + ∑ d, ∑ r, ∑ w, x0(d, r, w) * x0(d, r, w).

  The zero arrays the accumulators are reset to read 0 at every entry.
-/
import proofs.«424122_j85469849190579_3_alg».proof.Proof.KPieces
import proofs.«424122_j85469849190579_3_alg».proof.Proof.RowTerms
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.RowCounts

open Cert.KernelIdeal Cert.KernelIdeal.Gen Cert.KernelIdeal.Pieces Cert.KernelIdeal.RowTerms Idealize.ShloMosaic Idealize.ShloMosaic.ValueIdx

variable [Cert.KernelIdeal.Facts]

/-- The bf16 word 0x3F80 is the number one. -/
theorem one_bf16 : Ideal.ofBits .bf16 0x3F80#16 = 1 := by
  simp [Ideal.ofBits, Ideal.ieee, -EReal.coe_mul]; norm_num

/-- The row of ones reads one everywhere. -/
theorem ones_apply (j : S1x1024.Idx) : k0_pay5 (F := Ideal) j = 1 := one_bf16

/-- The f32 zero splats read zero everywhere. -/
theorem pay2_apply (j : S1x1x1024.Idx) : k0_pay2 (F := Ideal) j = 0 := Ideal.ofBits_zero_f32
/-- The same for the one-entry array. -/
theorem pay3_apply (j : S1x1x1.Idx) : k0_pay3 (F := Ideal) j = 0 := Ideal.ofBits_zero_f32

/-! ## Words -/

/-- For k below 1024 the 32-bit word of k equals a word y exactly when y, read as a natural number, is k. -/
theorem word_eq_iff (k : Fin 1024) (y : BitVec 32) : BitVec.ofNat 32 k.val = y ↔ y.toNat = k.val := by
  constructor
  · rintro rfl
    rw [BitVec.toNat_ofNat]
    exact Nat.mod_eq_of_lt (by have := k.isLt; omega)
  · intro h
    apply BitVec.eq_of_toNat_eq
    rw [BitVec.toNat_ofNat, h]
    exact Nat.mod_eq_of_lt (by have := k.isLt; omega)

/-- The comparison bit of two words, widened to 32 bits and read as a signed integer, is 1 when they are equal and 0 when not. -/
theorem hot_word (a b : BitVec 32) :
    ((((IntOp.cmpi .eq a b).setWidth 32).toInt : ℝ) : EReal) = if a = b then (1 : EReal) else 0 := by
  by_cases h : a = b
  · subst h
    rw [if_pos rfl]
    have e : (IntOp.cmpi .eq a a).setWidth 32 = 1#32 := by simp [IntOp.cmpi]
    rw [e]
    have e1 : (1#32 : BitVec 32).toInt = 1 := by decide
    rw [e1, Int.cast_one, EReal.coe_one]
  · rw [if_neg h]
    have e : (IntOp.cmpi .eq a b).setWidth 32 = 0#32 := by
      have hb : (a == b) = false := beq_eq_false_iff_ne.mpr h
      show BitVec.setWidth 32 (BitVec.ofBool (a == b)) = 0#32
      rw [hb]
      decide
    rw [e]
    have e0 : (0#32 : BitVec 32).toInt = 0 := by decide
    rw [e0, Int.cast_zero, EReal.coe_zero]

/-! ## The table of one row of labels -/

/-- A column of 1024 entries spread over 1024 columns reads, at (k, w), the column's entry k. -/
theorem spreadCol_apply {α : Type} (c : S1024x1.Idx → α) (k w : Fin 1024) :
    broadcastTo S1024x1024 c broadcasts_S1024x1_S1024x1024 (ix2 k w) = c (ix2 k (0 : Fin 1)) := by
  refine broadcastTo_apply c _ (ix2 k w) (ix2 k (0 : Fin 1)) fun ax => ?_
  match ax with
  | ⟨0, _⟩ => rfl
  | ⟨1, _⟩ => rfl

/-- The table of a row v of labels against a column lab of labels: entry (k, w) is the comparison of lab's entry k with
    v's entry w, as a number. -/
def table (v : IVec S1x1024 32) (lab : IVec S1024x1 32) : FVec Ideal S1024x1024 .bf16 :=
  truncf .bf16 (sitofp .f32 (extui 32 (cmpi .eq (broadcastTo S1024x1024 lab broadcasts_S1024x1_S1024x1024)
    (broadcastTo S1024x1024 v broadcasts_S1x1024_S1024x1024)) natLt_1_32)) bitsLt_bf16_f32

/-- Against the column 0, 1, …, 1023 the table's entry (k, w) is 1 when v's entry w is the label k, else 0. -/
theorem table_apply (v : IVec S1x1024 32) (k w : Fin 1024) :
    table v labels (ix2 k w) = if (v (ix2 (0 : Fin 1) w)).toNat = k.val then (1 : EReal) else 0 := by
  have e : table v labels (ix2 k w)
      = ((((IntOp.cmpi .eq (BitVec.ofNat 32 k.val) (v (ix2 (0 : Fin 1) w))).setWidth 32).toInt : ℝ) : EReal) := by
    show ((((IntOp.cmpi .eq (broadcastTo S1024x1024 labels broadcasts_S1024x1_S1024x1024 (ix2 k w))
      (broadcastTo S1024x1024 v broadcasts_S1x1024_S1024x1024 (ix2 k w))).setWidth 32).toInt : ℝ) : EReal) = _
    have hl : labels (ix2 k (0 : Fin 1)) = BitVec.ofNat 32 k.val :=
      iota_single_apply .tc S1024x1 32 0 iota_S1024x1_d0_w32 (ix2 k (0 : Fin 1))
    rw [spreadCol_apply, broadcastTo_1b_ab_apply, hl]
  rw [e, hot_word]
  by_cases h : (v (ix2 (0 : Fin 1) w)).toNat = k.val
  · rw [if_pos h, if_pos ((word_eq_iff k _).mpr h)]
  · rw [if_neg h, if_neg (fun h' => h ((word_eq_iff k _).mp h'))]

/-! ## One row of ones against a table -/

/-- The row operand's index at output index i and contraction position q: its row is i's, -/
theorem lhs_ax0 (i : S1x1024.Idx) (q : dot_S1x1024_S1024x1024_S1x1024_1_1_0_0_n_n.contr.Idx) :
    (dot_S1x1024_S1024x1024_S1x1024_1_1_0_0_n_n.lhsIdx i q 0).val = (i 0).val := by
  unfold DotDims.lhsIdx
  rw [dif_neg (show ¬(0 : Fin S1x1024.rank) ∈ dot_S1x1024_S1024x1024_S1x1024_1_1_0_0_n_n.lhsBatch by decide),
    dif_pos (show (0 : Fin S1x1024.rank) ∈ dot_S1x1024_S1024x1024_S1x1024_1_1_0_0_n_n.lhsNonContracting by decide)]
  rfl
/-- its column is q. -/
theorem lhs_ax1 (i : S1x1024.Idx) (q : dot_S1x1024_S1024x1024_S1x1024_1_1_0_0_n_n.contr.Idx) :
    (dot_S1x1024_S1024x1024_S1x1024_1_1_0_0_n_n.lhsIdx i q 1).val = (q ⟨0, by decide⟩).val :=
  dot_S1x1024_S1024x1024_S1x1024_1_1_0_0_n_n.lhsIdx_val_of_single rfl i q
/-- The table operand's index there: its row is i's column, -/
theorem rhs_ax0 (i : S1x1024.Idx) (q : dot_S1x1024_S1024x1024_S1x1024_1_1_0_0_n_n.contr.Idx) :
    (dot_S1x1024_S1024x1024_S1x1024_1_1_0_0_n_n.rhsIdx i q 0).val = (i 1).val := by
  unfold DotDims.rhsIdx
  rw [dif_neg (show ¬(0 : Fin S1024x1024.rank) ∈ dot_S1x1024_S1024x1024_S1x1024_1_1_0_0_n_n.rhsBatch by decide),
    dif_pos (show (0 : Fin S1024x1024.rank) ∈ dot_S1x1024_S1024x1024_S1x1024_1_1_0_0_n_n.rhsNonContracting by decide)]
  rfl
/-- its column is q. -/
theorem rhs_ax1 (i : S1x1024.Idx) (q : dot_S1x1024_S1024x1024_S1x1024_1_1_0_0_n_n.contr.Idx) :
    (dot_S1x1024_S1024x1024_S1x1024_1_1_0_0_n_n.rhsIdx i q 1).val = (q ⟨0, by decide⟩).val :=
  dot_S1x1024_S1024x1024_S1x1024_1_1_0_0_n_n.rhsIdx_val_of_single rfl i q

/-- The product of a row a with a table T, both contracted along their columns, into the zero row: entry k is the sum
    over the columns w of a's entry w times T's entry (k, w). -/
theorem rowTimesTable_apply (a : FVec Ideal S1x1024 .bf16) (T : FVec Ideal S1024x1024 .bf16) (k : Fin 1024) :
    matmul dot_S1x1024_S1024x1024_S1x1024_1_1_0_0_n_n none a T (constant (F := Ideal) S1x1024 .f32 0x00000000#32) (ix2 (0 : Fin 1) k)
      = ∑ w : Fin 1024, a (ix2 (0 : Fin 1) w) * T (ix2 k w) := by
  show FloatOps.matmul dot_S1x1024_S1024x1024_S1x1024_1_1_0_0_n_n none a T (constant (F := Ideal) S1x1024 .f32 0x00000000#32) (ix2 (0 : Fin 1) k) = _
  rw [Ideal.matmul_constant_zero_apply, ← Equiv.sum_comp (contrEquiv1 dot_S1x1024_S1024x1024_S1x1024_1_1_0_0_n_n 1024 rfl rfl).symm]
  refine Finset.sum_congr rfl fun w _ => ?_
  have hk := contrEquiv1_symm_val dot_S1x1024_S1024x1024_S1x1024_1_1_0_0_n_n 1024 rfl rfl w
  have el : dot_S1x1024_S1024x1024_S1x1024_1_1_0_0_n_n.lhsIdx (ix2 (0 : Fin 1) k) ((contrEquiv1 dot_S1x1024_S1024x1024_S1x1024_1_1_0_0_n_n 1024 rfl rfl).symm w) = ix2 (0 : Fin 1) w :=
    funext fun ax => Fin.ext (by
      match ax with
      | ⟨0, _⟩ => exact lhs_ax0 _ _
      | ⟨1, _⟩ => exact (lhs_ax1 _ _).trans hk)
  have er : dot_S1x1024_S1024x1024_S1x1024_1_1_0_0_n_n.rhsIdx (ix2 (0 : Fin 1) k) ((contrEquiv1 dot_S1x1024_S1024x1024_S1x1024_1_1_0_0_n_n 1024 rfl rfl).symm w) = ix2 k w :=
    funext fun ax => Fin.ext (by
      match ax with
      | ⟨0, _⟩ => exact rhs_ax0 _ _
      | ⟨1, _⟩ => exact (rhs_ax1 _ _).trans hk)
  rw [el, er]

/-! ## One row's update of the sizes -/

/-- The sizes after one row: the old sizes plus the row of ones times the row's table. -/
def step (a : FVec Ideal S1x1024 .bf16) (T : FVec Ideal S1024x1024 .bf16) (acc : Vec Ideal S1x1x1024 .f32) :
    FVec Ideal S1x1x1024 .f32 :=
  shapeCast S1x1x1024 (addf (shapeCast S1x1024 acc shapeCasts_S1x1x1024_S1x1024)
    (matmul dot_S1x1024_S1024x1024_S1x1024_1_1_0_0_n_n none a T (constant (F := Ideal) S1x1024 .f32 0x00000000#32))) shapeCasts_S1x1024_S1x1x1024

/-- Entry k after a row: the old entry plus the sum over the columns w of a's entry w times T's entry (k, w). -/
theorem step_apply (a : FVec Ideal S1x1024 .bf16) (T : FVec Ideal S1024x1024 .bf16) (acc : Vec Ideal S1x1x1024 .f32)
    (k : Fin 1024) :
    step a T acc (ix3 (0 : Fin 1) (0 : Fin 1) k)
      = acc (ix3 (0 : Fin 1) (0 : Fin 1) k) + ∑ w : Fin 1024, a (ix2 (0 : Fin 1) w) * T (ix2 k w) := by
  unfold step
  rw [shapeCast_ab_1ab_apply, addf_apply, shapeCast_1ab_ab_apply, rowTimesTable_apply]

/-- The table of the row of x1 that starts at offset o. -/
def rowTable (x1 : Vec Ideal S8x1024 .i32) (o : Nat) (h : S8x1024.Slices ![o, 0] S1x1024) : FVec Ideal S1024x1024 .bf16 :=
  table (extractStridedSlice S1x1024 ![o, 0] x1 h) labels

/-- Its entry (k, w) is 1 when pixel w of row r carries label k, else 0. -/
theorem rowTable_apply (x1 : Vec Ideal S8x1024 .i32) (o : Nat) (h : S8x1024.Slices ![o, 0] S1x1024) (r : Fin 8)
    (hr : r.val = o) (k w : Fin 1024) :
    rowTable x1 o h (ix2 k w) = if (x1 (ix2 r w)).toNat = k.val then (1 : EReal) else 0 := by
  unfold rowTable
  rw [table_apply, slice2_axis0_apply o x1 h (0 : Fin 1) w r (by rw [hr]; rfl)]

/-- One row's update adds the number of the row's pixels that carry label k. -/
theorem rowStep_apply (x1 : Vec Ideal S8x1024 .i32) (o : Nat) (h : S8x1024.Slices ![o, 0] S1x1024) (r : Fin 8)
    (hr : r.val = o) (acc : Vec Ideal S1x1x1024 .f32) (k : Fin 1024) :
    step (k0_pay5 (F := Ideal)) (rowTable x1 o h) acc (ix3 (0 : Fin 1) (0 : Fin 1) k)
      = acc (ix3 (0 : Fin 1) (0 : Fin 1) k) + cntTerm x1 r k := by
  rw [step_apply]
  unfold cntTerm
  refine congrArg (acc (ix3 (0 : Fin 1) (0 : Fin 1) k) + ·) (Finset.sum_congr rfl fun w _ => ?_)
  rw [ones_apply, rowTable_apply x1 o h r hr, one_mul]

/-! ## The eight rows of a point -/

/-- A point's update of the sizes is the eight row updates in turn. -/
theorem cntStep_eq (x1 : Vec Ideal S8x1024 .i32) (acc : Vec Ideal S1x1x1024 .f32) :
    cntStep (F := Ideal) x1 acc
      = step k0_pay5 (rowTable x1 7 slices_S8x1024_o7_0_S1x1024) (step k0_pay5 (rowTable x1 6 slices_S8x1024_o6_0_S1x1024)
          (step k0_pay5 (rowTable x1 5 slices_S8x1024_o5_0_S1x1024) (step k0_pay5 (rowTable x1 4 slices_S8x1024_o4_0_S1x1024)
            (step k0_pay5 (rowTable x1 3 slices_S8x1024_o3_0_S1x1024) (step k0_pay5 (rowTable x1 2 slices_S8x1024_o2_0_S1x1024)
              (step k0_pay5 (rowTable x1 1 slices_S8x1024_o1_0_S1x1024)
                (step k0_pay5 (rowTable x1 0 slices_S8x1024_o0_0_S1x1024) acc))))))) := rfl

/-- Entry k of the sizes after a point: the old entry plus the number of the point's pixels labelled k, row by row. -/
theorem cntStep_apply (x1 : Vec Ideal S8x1024 .i32) (acc : Vec Ideal S1x1x1024 .f32) (k : Fin 1024) :
    cntStep (F := Ideal) x1 acc (ix3 (0 : Fin 1) (0 : Fin 1) k)
      = acc (ix3 (0 : Fin 1) (0 : Fin 1) k) + ∑ r : Fin 8, cntTerm x1 r k := by
  rw [cntStep_eq, rowStep_apply x1 7 _ 7 rfl, rowStep_apply x1 6 _ 6 rfl, rowStep_apply x1 5 _ 5 rfl,
    rowStep_apply x1 4 _ 4 rfl, rowStep_apply x1 3 _ 3 rfl, rowStep_apply x1 2 _ 2 rfl, rowStep_apply x1 1 _ 1 rfl,
    rowStep_apply x1 0 _ 0 rfl, Fin.sum_univ_eight]
  simp only [add_assoc]

/-! ## The sum of squares -/

/-- Summing a 64 x 8 x 1024 array along its columns leaves, at (d, r), the sum of row (d, r). -/
theorem sumCols_apply (v : FVec Ideal S64x8x1024 .f32) (d : Fin 64) (r : Fin 8) :
    multiReduction (F := Ideal) .add [2] S64x8 v 0x00000000#32 reduces_S64x8x1024_S64x8 (.inl rfl) rfl (ix2 d r)
      = ∑ w : Fin 1024, v (ix3 d r w) := by
  refine (Ideal.multiReduction_add_single v _ reduces_S64x8x1024_S64x8 (.inl rfl) rfl (ix2 d r)).trans ?_
  refine Finset.sum_congr rfl fun w _ => congrArg v (funext fun a => Fin.ext ?_)
  match a with
  | ⟨0, _⟩ => rfl
  | ⟨1, _⟩ => rfl
  | ⟨2, _⟩ => rfl

/-- Summing a 64 x 8 array along its rows leaves, at d, the sum of line d. -/
theorem sumRows_apply (v : FVec Ideal S64x8 .f32) (d : Fin 64) :
    multiReduction (F := Ideal) .add [1] S64 v 0x00000000#32 reduces_S64x8_S64 (.inl rfl) rfl (ix1 d)
      = ∑ r : Fin 8, v (ix2 d r) := by
  refine (Ideal.multiReduction_add_single v _ reduces_S64x8_S64 (.inl rfl) rfl (ix1 d)).trans ?_
  refine Finset.sum_congr rfl fun r _ => congrArg v (funext fun a => Fin.ext ?_)
  match a with
  | ⟨0, _⟩ => rfl
  | ⟨1, _⟩ => rfl

/-- Summing a 64 x 1 column along its length leaves the sum of its entries. -/
theorem sumChans_apply (v : FVec Ideal S64x1 .f32) (u : Fin 1) :
    multiReduction (F := Ideal) .add [0] S1 v 0x00000000#32 reduces_S64x1_S1 (.inl rfl) rfl (ix1 u)
      = ∑ d : Fin 64, v (ix2 d (0 : Fin 1)) := by
  refine (Ideal.multiReduction_add_single v _ reduces_S64x1_S1 (.inl rfl) rfl (ix1 u)).trans ?_
  refine Finset.sum_congr rfl fun d _ => congrArg v (funext fun a => Fin.ext ?_)
  match a with
  | ⟨0, _⟩ => rfl
  | ⟨1, _⟩ =>
    have := u.isLt
    show u.val = 0
    omega

/-- 64 entries laid out as a 64 x 1 column: entry (d, 0) is entry d. -/
theorem asColumn_apply {α : Type} (v : S64.Idx → α) (d : Fin 64) (u : Fin 1) :
    shapeCast S64x1 v shapeCasts_S64_S64x1 (ix2 d u) = v (ix1 d) :=
  shapeCast_apply v _ _ _ (by
    have hu : u.val = 0 := by omega
    rw [Shape.rowMajor_val_two, Shape.rowMajor_val_one]
    show d.val = d.val * 1 + u.val
    rw [hu, Nat.mul_one, Nat.add_zero])

/-- The sum of squares after a point: the old value plus the sum of the tile's squares. -/
theorem sqStep_apply (x0 : Vec Ideal S64x8x1024 .f32) (acc : Vec Ideal S1x1x1 .f32) :
    sqStep (F := Ideal) x0 acc (ix3 (0 : Fin 1) (0 : Fin 1) (0 : Fin 1))
      = acc (ix3 (0 : Fin 1) (0 : Fin 1) (0 : Fin 1)) + sqTerm x0 := by
  unfold sqStep k0_pay4 sqTerm
  dsimp only
  rw [shapeCast_ab_1ab_apply, addf_apply, shapeCast_1ab_ab_apply, shapeCast_a_1a_apply, sumChans_apply]
  refine congrArg (acc (ix3 (0 : Fin 1) (0 : Fin 1) (0 : Fin 1)) + ·) (Finset.sum_congr rfl fun d _ => ?_)
  rw [asColumn_apply, sumRows_apply]
  refine Finset.sum_congr rfl fun r _ => ?_
  rw [sumCols_apply]
  rfl

end Cert.KernelIdeal.RowCounts

end
-- ==== Proof.KBlocks.lean ====
/-
  What the two input windows hold at grid point t, entry by entry.

  The grid has 2 x 64 = 128 points in row-major order; point t has coordinates (t / 64, t % 64), and both input
  windows take block number 64 * (t / 64) + t % 64 = t: of the image (64 channels of 1024 rows by 1024 columns) the
  block of all 64 channels, the 8 rows 8 t .. 8 t + 7 and all 1024 columns, and of the label map (1024 by 1024) the
  same 8 rows with all columns.  A block's entry sits in the array at coordinate
    (block index) * (block extent) + (coordinate inside the block)
  on every axis, so entry (d, r, w) of the image's block is the image at (d, 8 t + r, w), and entry (r, w) of the label
  map's block is the label map at (8 t + r, w).  Since t < 128 and r < 8, the row 8 t + r is below 1024.
-/
import proofs.«424122_j85469849190579_3_alg».proof.Proof.Gen.KernelIdeal.Frame
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx

variable {F : FTy → Type} [FloatOps F]
variable (m : (ℓ : Loc nD τ sig) → Buf (Elt F) ℓ)

/-- Row r of block t is a row of the array: 8 t + r ≤ 8 * 127 + 7 = 1023. -/
theorem row_lt (t : Fin cfg0.N) (r : Fin 8) : 8 * t.val + r.val < 1024 := by
  have ht : t.val < 128 := lt_of_lt_of_eq t.isLt N_0
  have hr := r.isLt
  omega

/-- The image's block index at point t is (0, t, 0): 64 * (t / 64) + t % 64 = t, checked at each of the 128 points. -/
theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

/-- The label map's block index at point t is (t, 0). -/
theorem index1 : ∀ t : Fin cfg0.N, win0_1.index t 0 = t.val ∧ win0_1.index t 1 = 0 :=
  (by decide +kernel : ∀ t : Fin grid0.N, win0_1.index t 0 = t.val ∧ win0_1.index t 1 = 0)

/-- Entry (d, r, w) of the image's block at point t is the image at (d, 8 t + r, w). -/
theorem iblk0_apply (c : Dev nD) (t : Fin cfg0.N) (d : Fin 64) (r : Fin 8) (w : Fin 1024) :
    (iblk m c 0 t : Vec F S64x8x1024 .f32) (ix3 d r w) = m ((c : Thread nD τ).loc main_arg0) (ix3 d ⟨8 * t.val + r.val, row_lt t r⟩ w) := by
  obtain ⟨h0, h1, h2⟩ := index0 t
  unfold iblk
  rw [View.read_apply]
  show V m c main_arg0 _ = _
  rw [V_main_arg0]
  congr 1
  funext a
  apply Fin.ext
  -- per axis: index * extent + coordinate inside the block
  match a with
  | ⟨0, _⟩ => show win0_0.index t 0 * 64 + 1 * d.val = d.val; rw [h0]; omega
  | ⟨1, _⟩ => show win0_0.index t 1 * 8 + 1 * r.val = 8 * t.val + r.val; rw [h1]; omega
  | ⟨2, _⟩ => show win0_0.index t 2 * 1024 + 1 * w.val = w.val; rw [h2]; omega

/-- Entry (r, w) of the label map's block at point t is the label map at (8 t + r, w). -/
theorem iblk1_apply (c : Dev nD) (t : Fin cfg0.N) (r : Fin 8) (w : Fin 1024) :
    (iblk m c 1 t : Vec F S8x1024 .i32) (ix2 r w) = m ((c : Thread nD τ).loc main_arg1) (ix2 ⟨8 * t.val + r.val, row_lt t r⟩ w) := by
  obtain ⟨h0, h1⟩ := index1 t
  unfold iblk
  rw [View.read_apply]
  show V m c main_arg1 _ = _
  rw [V_main_arg1]
  congr 1
  funext a
  apply Fin.ext
  match a with
  | ⟨0, _⟩ => show win0_1.index t 0 * 8 + 1 * r.val = 8 * t.val + r.val; rw [h0]; omega
  | ⟨1, _⟩ => show win0_1.index t 1 * 1024 + 1 * w.val = w.val; rw [h1]; omega

end Cert.KernelIdeal.Blocks

end
-- ==== Proof.Spec.lean ====
/-
  The quantity both programs compute, as extended-real formulas of the two inputs.

  x is a 64-channel image of 1024 rows by 1024 columns, sp gives every pixel a label (a 32-bit word, read as a
  natural number).  For a channel d and a label k,
    rowSum d k h   is the sum of x d over the pixels of row h labelled k,
    rowCnt k h     the number of pixels of row h labelled k,
    segSum d k     the sum of rowSum over all rows (the label's sum in channel d),
    segCnt k       the sum of rowCnt over all rows (the label's size),
    segMean d k    segSum d k divided by the larger of segCnt k and one.
  The one-pass side returns  (sum x^2 - 2 * sum_{d,k} mean * segSum) + sum_k segCnt * sum_d mean^2  (onePass), the
  two-pass side the sum over channels and pixels of the squared deviation from the pixel's own label's mean
  (twoPass).
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- The image's shape and the label map's. -/
abbrev SX : Shape := ⟨3, ![64, 1024, 1024]⟩
abbrev SP : Shape := ⟨2, ![1024, 1024]⟩

variable (x : SX.Idx → EReal) (sp : SP.Idx → BitVec 32)

/-- Row h's share of label k's sum in channel d. -/
def rowSum (d : Fin 64) (k : ℕ) (h : Fin 1024) : EReal :=
  ∑ w : Fin 1024, if (sp (ix2 h w)).toNat = k then x (ix3 d h w) else 0

/-- Row h's share of label k's size. -/
def rowCnt (k : ℕ) (h : Fin 1024) : EReal :=
  ∑ w : Fin 1024, if (sp (ix2 h w)).toNat = k then (1 : EReal) else 0

/-- Row h's share of the sum of squares. -/
def rowSq (h : Fin 1024) : EReal :=
  ∑ d : Fin 64, ∑ w : Fin 1024, x (ix3 d h w) * x (ix3 d h w)

/-- Label k's sum in channel d. -/
def segSum (d : Fin 64) (k : ℕ) : EReal := ∑ h : Fin 1024, rowSum x sp d k h

/-- Label k's size. -/
def segCnt (k : ℕ) : EReal := ∑ h : Fin 1024, rowCnt sp k h

/-- The sum of all squares. -/
def sumSq : EReal := ∑ h : Fin 1024, rowSq x h

/-- Label k's mean in channel d (an empty label divides by one). -/
def segMean (d : Fin 64) (k : ℕ) : EReal := Ideal.div (segSum x sp d k) (max (segCnt sp k) 1)

/-- The one-pass value. -/
def onePass : EReal :=
  (sumSq x - 2 * ∑ d : Fin 64, ∑ k : Fin 1024, segMean x sp d k.val * segSum x sp d k.val)
    + ∑ k : Fin 1024, segCnt sp k.val * ∑ d : Fin 64, segMean x sp d k.val * segMean x sp d k.val

/-- The two-pass value. -/
def twoPass : EReal :=
  ∑ d : Fin 64, ∑ h : Fin 1024, ∑ w : Fin 1024,
    (x (ix3 d h w) - segMean x sp d (sp (ix2 h w)).toNat) * (x (ix3 d h w) - segMean x sp d (sp (ix2 h w)).toNat)

end Cert.Spec

end
-- ==== Proof.KInvariant.lean ====
/-
  What the three accumulators hold after every grid point, entry by entry: the sums of the image rows' shares over the
  rows met since the last reset.

  Grid point n holds the image rows 8n … 8n+7; the accumulators are reset at the points n divisible by 64, that is at
  the first point of each half.  So after point n the per-label sums, the per-label sizes and the sum of squares are
  the sums of the rows' shares (Spec.rowSum, Spec.rowCnt, Spec.rowSq of the whole image and label map) over the rows
  8 * (n - n % 64) ≤ h < 8 * (n + 1).
-/
import proofs.«424122_j85469849190579_3_alg».proof.Proof.RowSums
import proofs.«424122_j85469849190579_3_alg».proof.Proof.RowCounts
import proofs.«424122_j85469849190579_3_alg».proof.Proof.KBlocks
import proofs.«424122_j85469849190579_3_alg».proof.Proof.KPieces
import proofs.«424122_j85469849190579_3_alg».proof.Proof.RowTerms
import proofs.«424122_j85469849190579_3_alg».proof.Proof.Spec
import Idealize.ShloMosaic.Lib.ValueIdx
import Idealize.ShloMosaic.Lib.Pipeline.Value
import Mathlib.Algebra.BigOperators.Intervals

set_option maxRecDepth 16384

noncomputable section

open scoped BigOperators
open Idealize.ShloMosaic Idealize.ShloMosaic.TcCoe Idealize.SL.Sem Idealize.ShloMosaic.ValueIdx

namespace Cert.KernelIdeal.Invariant

open Cert.KernelIdeal Cert.KernelIdeal.Gen Cert.KernelIdeal.Pieces Cert.KernelIdeal.RowTerms
open Cert.KernelIdeal.RowSums Cert.KernelIdeal.RowCounts Cert.KernelIdeal.Blocks

variable (m : (ℓ : Loc nD τ sig) → Buf (Elt Ideal) ℓ)

/-- The image and the label map on core c. -/
abbrev img (c : Dev nD) : Cert.Spec.SX.Idx → EReal := m ((c : Thread nD τ).loc main_arg0)
abbrev lab (c : Dev nD) : Cert.Spec.SP.Idx → BitVec 32 := m ((c : Thread nD τ).loc main_arg1)

/-- Row h's shares, for a row number h that may lie outside the image (then nothing). -/
def gRowSum (c : Dev nD) (d : Fin 64) (k : Fin 1024) (h : ℕ) : EReal :=
  if hh : h < 1024 then Cert.Spec.rowSum (img m c) (lab m c) d k.val ⟨h, hh⟩ else 0
def gRowCnt (c : Dev nD) (k : Fin 1024) (h : ℕ) : EReal :=
  if hh : h < 1024 then Cert.Spec.rowCnt (lab m c) k.val ⟨h, hh⟩ else 0
def gRowSq (c : Dev nD) (h : ℕ) : EReal :=
  if hh : h < 1024 then Cert.Spec.rowSq (img m c) ⟨h, hh⟩ else 0

/-- A sum over the eight rows of point t is the sum over the row numbers 8t … 8t+7. -/
theorem sum_rows (g : ℕ → EReal) (t : ℕ) : ∑ r : Fin 8, g (8 * t + r.val) = ∑ h ∈ Finset.Ico (8 * t) (8 * (t + 1)), g h := by
  rw [Finset.sum_Ico_eq_sum_range, show 8 * (t + 1) - 8 * t = 8 by omega, Finset.sum_range]

/-- Point t's input tiles are rows 8t … 8t+7 of the image and of the label map: its share of a label's sum. -/
theorem rowTerm_iblk (c : Dev nD) (t : Fin cfg0.N) (r : Fin 8) (d : Fin 64) (k : Fin 1024) :
    rowTerm (iblk m c 0 t) (iblk m c 1 t) r d k = gRowSum m c d k (8 * t.val + r.val) := by
  unfold rowTerm gRowSum
  rw [dif_pos (row_lt t r)]
  unfold Cert.Spec.rowSum
  refine Finset.sum_congr rfl fun w _ => ?_
  rw [iblk0_apply m c t d r w, iblk1_apply m c t r w]

theorem cntTerm_iblk (c : Dev nD) (t : Fin cfg0.N) (r : Fin 8) (k : Fin 1024) :
    cntTerm (iblk m c 1 t) r k = gRowCnt m c k (8 * t.val + r.val) := by
  unfold cntTerm gRowCnt
  rw [dif_pos (row_lt t r)]
  unfold Cert.Spec.rowCnt
  refine Finset.sum_congr rfl fun w _ => ?_
  rw [iblk1_apply m c t r w]

theorem sqTerm_iblk (c : Dev nD) (t : Fin cfg0.N) :
    sqTerm (iblk m c 0 t) = ∑ r : Fin 8, gRowSq m c (8 * t.val + r.val) := by
  unfold sqTerm
  rw [Finset.sum_comm]
  refine Finset.sum_congr rfl fun r _ => ?_
  unfold gRowSq
  rw [dif_pos (row_lt t r)]
  unfold Cert.Spec.rowSq
  refine Finset.sum_congr rfl fun d _ => Finset.sum_congr rfl fun w _ => ?_
  rw [iblk0_apply m c t d r w]

/-- The eight rows of point t, as a sum over row numbers. -/
theorem sums_point (c : Dev nD) (t : Fin cfg0.N) (d : Fin 64) (k : Fin 1024) :
    ∑ r : Fin 8, rowTerm (iblk m c 0 t) (iblk m c 1 t) r d k = ∑ h ∈ Finset.Ico (8 * t.val) (8 * (t.val + 1)), gRowSum m c d k h :=
  (Finset.sum_congr rfl fun r _ => rowTerm_iblk m c t r d k).trans (sum_rows (gRowSum m c d k) t.val)

theorem cnt_point (c : Dev nD) (t : Fin cfg0.N) (k : Fin 1024) :
    ∑ r : Fin 8, cntTerm (iblk m c 1 t) r k = ∑ h ∈ Finset.Ico (8 * t.val) (8 * (t.val + 1)), gRowCnt m c k h :=
  (Finset.sum_congr rfl fun r _ => cntTerm_iblk m c t r k).trans (sum_rows (gRowCnt m c k) t.val)

theorem sq_point (c : Dev nD) (t : Fin cfg0.N) :
    sqTerm (iblk m c 0 t) = ∑ h ∈ Finset.Ico (8 * t.val) (8 * (t.val + 1)), gRowSq m c h :=
  (sqTerm_iblk m c t).trans (sum_rows (gRowSq m c) t.val)

/-- What the accumulators hold after point n: the rows' shares since the last reset. -/
def Inv (c : Dev nD) (n : ℕ) (hn : n < cfg0.N) : Prop :=
  (∀ (d : Fin 64) (k : Fin 1024), (outsAt0 m c n hn).1 (ix3 (0 : Fin 1) d k)
      = ∑ h ∈ Finset.Ico (8 * (n - n % 64)) (8 * (n + 1)), gRowSum m c d k h)
  ∧ (∀ k : Fin 1024, (outsAt0 m c n hn).2.1 (ix3 (0 : Fin 1) (0 : Fin 1) k)
      = ∑ h ∈ Finset.Ico (8 * (n - n % 64)) (8 * (n + 1)), gRowCnt m c k h)
  ∧ (outsAt0 m c n hn).2.2 (ix3 (0 : Fin 1) (0 : Fin 1) (0 : Fin 1))
      = ∑ h ∈ Finset.Ico (8 * (n - n % 64)) (8 * (n + 1)), gRowSq m c h

/-- A point that resets: the accumulators hold that point's rows only. -/
theorem inv_reset (c : Dev nD) (t : Fin cfg0.N) (h0 : t.val % 64 = 0) : Inv m c t.val t.isLt := by
  have hlo : 8 * (t.val - t.val % 64) = 8 * t.val := by rw [h0, Nat.sub_zero]
  unfold Inv
  rw [hlo, outsAt0_A m c t h0]
  dsimp only
  refine ⟨fun d k => ?_, fun k => ?_, ?_⟩
  · rw [out_A_2 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) ((hcond0_0 t).mpr h0), sumsStep_apply, pay1_apply, zero_add]
    exact sums_point m c t d k
  · rw [out_A_3 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) ((hcond0_0 t).mpr h0), cntStep_apply, pay2_apply, zero_add]
    exact cnt_point m c t k
  · rw [out_A_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t) ((hcond0_0 t).mpr h0), sqStep_apply, pay3_apply, zero_add]
    exact sq_point m c t

/-- A point that does not reset: the accumulators go on from the point before. -/
theorem inv_step (c : Dev nD) (t : Fin cfg0.N) (h0 : ¬t.val % 64 = 0)
    (ih : Inv m c (t.val - 1) (Nat.lt_of_le_of_lt (Nat.sub_le _ _) t.isLt)) : Inv m c t.val t.isLt := by
  have hpos : 0 < t.val := Nat.pos_of_ne_zero fun e => h0 (by rw [e])
  have hlo : 8 * (t.val - 1 - (t.val - 1) % 64) = 8 * (t.val - t.val % 64) := by omega
  have hhi : 8 * (t.val - 1 + 1) = 8 * t.val := by omega
  have hle1 : 8 * (t.val - t.val % 64) ≤ 8 * t.val := by omega
  have hle2 : 8 * t.val ≤ 8 * (t.val + 1) := by omega
  obtain ⟨ih2, ih3, ih4⟩ := ih
  rw [hlo, hhi] at ih2 ih3 ih4
  unfold Inv
  rw [outsAt0_B m c t h0]
  dsimp only
  refine ⟨fun d k => ?_, fun k => ?_, ?_⟩
  · rw [out_B_2 c (grid0.coords t) (ms0_0 t) (hs0_0 t) (ms0_1 t) (hs0_1 t) (ms0_2 t) (hs0_2 t) (ms0_3 t) (hs0_3 t) (ms0_4 t) (hs0_4 t)
      (iblk m c 0 t) (iblk m c 1 t), sumsStep_apply, ih2 d k, sums_point m c t d k]
    exact Finset.sum_Ico_consecutive _ hle1 hle2
  · rw [out_B_3 c (grid0.coords t) (ms0_0 t) (hs0_0 t) (ms0_1 t) (hs0_1 t) (ms0_2 t) (hs0_2 t) (ms0_3 t) (hs0_3 t) (ms0_4 t) (hs0_4 t)
      (iblk m c 0 t) (iblk m c 1 t), cntStep_apply, ih3 k, cnt_point m c t k]
    exact Finset.sum_Ico_consecutive _ hle1 hle2
  · rw [out_B_4 c (grid0.coords t) (ms0_0 t) (hs0_0 t) (ms0_1 t) (hs0_1 t) (ms0_2 t) (hs0_2 t) (ms0_3 t) (hs0_3 t) (ms0_4 t) (hs0_4 t)
      (iblk m c 0 t) (iblk m c 1 t), sqStep_apply, ih4, sq_point m c t]
    exact Finset.sum_Ico_consecutive _ hle1 hle2

/-- The invariant at every point. -/
theorem inv_all (c : Dev nD) : ∀ (n : ℕ) (hn : n < cfg0.N), Inv m c n hn
  | 0, hn => inv_reset m c ⟨0, hn⟩ rfl
  | n + 1, hn => by
    by_cases h0 : (n + 1) % 64 = 0
    · exact inv_reset m c ⟨n + 1, hn⟩ h0
    · exact inv_step m c ⟨n + 1, hn⟩ h0 (inv_all c n (Nat.lt_of_succ_lt hn))

end Cert.KernelIdeal.Invariant
end
-- ==== Proof.KFinal.lean ====
/-
  The kernel's three result arrays after the region, entry by entry.

  Each result array has one block per half of the image rows; the block of half q is written back once, after the
  last grid point of that half (point 64 q + 63), and holds what the accumulators hold then: the rows' shares summed
  over the rows 512 q ≤ h < 512 (q + 1).  The two blocks tile the array, so these sums are the whole array.
-/
import proofs.«424122_j85469849190579_3_alg».proof.Proof.KInvariant

set_option maxRecDepth 16384

noncomputable section

open scoped BigOperators
open Idealize.ShloMosaic Idealize.ShloMosaic.TcCoe Idealize.SL.Sem Idealize.ShloMosaic.ValueIdx

namespace Cert.KernelIdeal.Final

open Cert.KernelIdeal Cert.KernelIdeal.Gen Cert.KernelIdeal.Invariant
open Idealize.ShloMosaic.Pipeline (Dat)

variable (m : (ℓ : Loc nD τ sig) → Buf (Elt Ideal) ℓ)

/-- The block index of the three result windows at point t: the half t / 64, and nothing else moves. -/
theorem index2 : ∀ t : Fin cfg0.N, win0_2.index t 0 = t.val / 64 ∧ win0_2.index t 1 = 0 ∧ win0_2.index t 2 = 0 :=
  (by decide +kernel : ∀ t : Fin grid0.N, win0_2.index t 0 = t.val / 64 ∧ win0_2.index t 1 = 0 ∧ win0_2.index t 2 = 0)

/-- The per-label sums of the two halves of the rows, as one array (half, channel, label). -/
def G2 (c : Dev nD) : Vec Ideal S2x64x1024 .f32 := fun j =>
  ∑ h ∈ Finset.Ico (512 * (j 0).val) (512 * ((j 0).val + 1)), gRowSum m c ⟨(j 1).val, (j 1).isLt⟩ ⟨(j 2).val, (j 2).isLt⟩ h

theorem G2_apply (c : Dev nD) (q : Fin 2) (d : Fin 64) (k : Fin 1024) :
    G2 m c (ix3 q d k) = ∑ h ∈ Finset.Ico (512 * q.val) (512 * (q.val + 1)), gRowSum m c d k h := rfl

/-- An index of a one-half block is (0, channel, label). -/
theorem eq_ix3_block2 (j : S1x64x1024.Idx) : j = ix3 (0 : Fin 1) (⟨(j 1).val, (j 1).isLt⟩ : Fin 64) (⟨(j 2).val, (j 2).isLt⟩ : Fin 1024) := by
  funext a
  match a with
  | ⟨0, _⟩ => exact Fin.ext (by have h0 : (j 0).val < 1 := (j 0).isLt; show (j 0).val = 0; omega)
  | ⟨1, _⟩ => rfl
  | ⟨2, _⟩ => rfl

/-- At the last point of a half, the accumulator's entry j is the half's sum at the array index the block's entry j
    lies at. -/
theorem blk2_at (c : Dev nD) (t : Fin cfg0.N) (h63 : t.val % 64 = 63) (j : S1x64x1024.Idx) :
    (outsAt0 m c t.val t.isLt).1 j = G2 m c (((cfg0.win 2).blk t).view.emb j) := by
  have hN : t.val < 128 := lt_of_lt_of_eq t.isLt (show cfg0.N = 128 from N_0)
  obtain ⟨e0, e1, e2⟩ := index2 t
  have hemb : ((cfg0.win 2).blk t).view.emb j
      = ix3 (⟨t.val / 64, by omega⟩ : Fin 2) (⟨(j 1).val, (j 1).isLt⟩ : Fin 64) (⟨(j 2).val, (j 2).isLt⟩ : Fin 1024) := by
    funext a
    apply Fin.ext
    match a with
    | ⟨0, _⟩ => show win0_2.index t 0 * 1 + 1 * (j 0).val = t.val / 64; have : (j 0).val < 1 := (j 0).isLt; omega
    | ⟨1, _⟩ => show win0_2.index t 1 * 64 + 1 * (j 1).val = (j 1).val; omega
    | ⟨2, _⟩ => show win0_2.index t 2 * 1024 + 1 * (j 2).val = (j 2).val; omega
  rw [hemb, G2_apply]
  conv_lhs => rw [eq_ix3_block2 j]
  have h1 : 8 * (t.val - t.val % 64) = 512 * (t.val / 64) := by omega
  have h2 : 8 * (t.val + 1) = 512 * (t.val / 64 + 1) := by omega
  rw [(inv_all m c t.val t.isLt).1, h1, h2]

/-- The last point of a half writes back that half's sums. -/
theorem flushed2_eq (c : Dev nD) (t : Fin cfg0.N) (hf : (cfg0.win 2).flush t = true) :
    (dats m 0 c).flushed 2 t = ((cfg0.win 2).blk t).view.read (Elt Ideal) (G2 m c) := by
  have h63 : t.val % 64 = 63 := (flush0_2 t).mp hf
  show (cfg0.win 2).cut (grid0.coords t) ((dats m 0 c).after 2 t) = _
  rw [after0_2]
  funext j
  exact blk2_at m c t h63 j

/-- Every entry of the sums array lies in the block the last point of its half writes back. -/
theorem cover2 (i : S2x64x1024.Idx) : ∃ t : Fin cfg0.N, (cfg0.win 2).flush t = true ∧ i ∈ ((cfg0.win 2).blk t).view.set := by
  have hN : cfg0.N = 128 := N_0
  have hi0 : (i 0).val < 2 := (i 0).isLt
  have hi1 : (i 1).val < 64 := (i 1).isLt
  have hi2 : (i 2).val < 1024 := (i 2).isLt
  let t : Fin cfg0.N := ⟨64 * (i 0).val + 63, by omega⟩
  have ht : t.val = 64 * (i 0).val + 63 := rfl
  obtain ⟨e0, e1, e2⟩ := index2 t
  refine ⟨t, (flush0_2 t).mpr (by omega), ?_⟩
  show i ∈ ((View.whole main_v0_0).slice (win0_2.rect t)).set
  rw [View.set_slice_whole, Rect.mem_set_unit]
  intro a
  match a with
  | ⟨0, _⟩ => show win0_2.index t 0 * 1 ≤ (i 0).val ∧ (i 0).val < win0_2.index t 0 * 1 + 1; omega
  | ⟨1, _⟩ => show win0_2.index t 1 * 64 ≤ (i 1).val ∧ (i 1).val < win0_2.index t 1 * 64 + 64; omega
  | ⟨2, _⟩ => show win0_2.index t 2 * 1024 ≤ (i 2).val ∧ (i 2).val < win0_2.index t 2 * 1024 + 1024; omega

/-- The sums array after the region. -/
theorem final2 (c : Dev nD) : (dats m 0 c).arrAt 2 cfg0.N = G2 m c :=
  (dats m 0 c).arrAt_eq_of_cover 2 (G2 m c) (flushed2_eq m c) cover2

/-! The sizes array (half, 1, label). -/

theorem index3 : ∀ t : Fin cfg0.N, win0_3.index t 0 = t.val / 64 ∧ win0_3.index t 1 = 0 ∧ win0_3.index t 2 = 0 :=
  (by decide +kernel : ∀ t : Fin grid0.N, win0_3.index t 0 = t.val / 64 ∧ win0_3.index t 1 = 0 ∧ win0_3.index t 2 = 0)

/-- The per-label sizes of the two halves of the rows, as one array (half, 1, label). -/
def G3 (c : Dev nD) : Vec Ideal S2x1x1024 .f32 := fun j =>
  ∑ h ∈ Finset.Ico (512 * (j 0).val) (512 * ((j 0).val + 1)), gRowCnt m c ⟨(j 2).val, (j 2).isLt⟩ h

theorem G3_apply (c : Dev nD) (q : Fin 2) (k : Fin 1024) :
    G3 m c (ix3 q (0 : Fin 1) k) = ∑ h ∈ Finset.Ico (512 * q.val) (512 * (q.val + 1)), gRowCnt m c k h := rfl

theorem eq_ix3_block3 (j : S1x1x1024.Idx) : j = ix3 (0 : Fin 1) (0 : Fin 1) (⟨(j 2).val, (j 2).isLt⟩ : Fin 1024) := by
  funext a
  match a with
  | ⟨0, _⟩ => exact Fin.ext (by have h0 : (j 0).val < 1 := (j 0).isLt; show (j 0).val = 0; omega)
  | ⟨1, _⟩ => exact Fin.ext (by have h0 : (j 1).val < 1 := (j 1).isLt; show (j 1).val = 0; omega)
  | ⟨2, _⟩ => rfl

theorem blk3_at (c : Dev nD) (t : Fin cfg0.N) (h63 : t.val % 64 = 63) (j : S1x1x1024.Idx) :
    (outsAt0 m c t.val t.isLt).2.1 j = G3 m c (((cfg0.win 3).blk t).view.emb j) := by
  have hN : t.val < 128 := lt_of_lt_of_eq t.isLt (show cfg0.N = 128 from N_0)
  obtain ⟨e0, e1, e2⟩ := index3 t
  have hemb : ((cfg0.win 3).blk t).view.emb j
      = ix3 (⟨t.val / 64, by omega⟩ : Fin 2) (0 : Fin 1) (⟨(j 2).val, (j 2).isLt⟩ : Fin 1024) := by
    funext a
    apply Fin.ext
    match a with
    | ⟨0, _⟩ => show win0_3.index t 0 * 1 + 1 * (j 0).val = t.val / 64; have : (j 0).val < 1 := (j 0).isLt; omega
    | ⟨1, _⟩ => show win0_3.index t 1 * 1 + 1 * (j 1).val = 0; have : (j 1).val < 1 := (j 1).isLt; omega
    | ⟨2, _⟩ => show win0_3.index t 2 * 1024 + 1 * (j 2).val = (j 2).val; omega
  rw [hemb, G3_apply]
  conv_lhs => rw [eq_ix3_block3 j]
  have h1 : 8 * (t.val - t.val % 64) = 512 * (t.val / 64) := by omega
  have h2 : 8 * (t.val + 1) = 512 * (t.val / 64 + 1) := by omega
  rw [(inv_all m c t.val t.isLt).2.1, h1, h2]

theorem flushed3_eq (c : Dev nD) (t : Fin cfg0.N) (hf : (cfg0.win 3).flush t = true) :
    (dats m 0 c).flushed 3 t = ((cfg0.win 3).blk t).view.read (Elt Ideal) (G3 m c) := by
  have h63 : t.val % 64 = 63 := (flush0_3 t).mp hf
  show (cfg0.win 3).cut (grid0.coords t) ((dats m 0 c).after 3 t) = _
  rw [after0_3]
  funext j
  exact blk3_at m c t h63 j

theorem cover3 (i : S2x1x1024.Idx) : ∃ t : Fin cfg0.N, (cfg0.win 3).flush t = true ∧ i ∈ ((cfg0.win 3).blk t).view.set := by
  have hN : cfg0.N = 128 := N_0
  have hi0 : (i 0).val < 2 := (i 0).isLt
  have hi1 : (i 1).val < 1 := (i 1).isLt
  have hi2 : (i 2).val < 1024 := (i 2).isLt
  let t : Fin cfg0.N := ⟨64 * (i 0).val + 63, by omega⟩
  have ht : t.val = 64 * (i 0).val + 63 := rfl
  obtain ⟨e0, e1, e2⟩ := index3 t
  refine ⟨t, (flush0_3 t).mpr (by omega), ?_⟩
  show i ∈ ((View.whole main_v0_1).slice (win0_3.rect t)).set
  rw [View.set_slice_whole, Rect.mem_set_unit]
  intro a
  match a with
  | ⟨0, _⟩ => show win0_3.index t 0 * 1 ≤ (i 0).val ∧ (i 0).val < win0_3.index t 0 * 1 + 1; omega
  | ⟨1, _⟩ => show win0_3.index t 1 * 1 ≤ (i 1).val ∧ (i 1).val < win0_3.index t 1 * 1 + 1; omega
  | ⟨2, _⟩ => show win0_3.index t 2 * 1024 ≤ (i 2).val ∧ (i 2).val < win0_3.index t 2 * 1024 + 1024; omega

/-- The sizes array after the region. -/
theorem final3 (c : Dev nD) : (dats m 0 c).arrAt 3 cfg0.N = G3 m c :=
  (dats m 0 c).arrAt_eq_of_cover 3 (G3 m c) (flushed3_eq m c) cover3

/-! The sums of squares (half, 1, 1). -/

theorem index4 : ∀ t : Fin cfg0.N, win0_4.index t 0 = t.val / 64 ∧ win0_4.index t 1 = 0 ∧ win0_4.index t 2 = 0 :=
  (by decide +kernel : ∀ t : Fin grid0.N, win0_4.index t 0 = t.val / 64 ∧ win0_4.index t 1 = 0 ∧ win0_4.index t 2 = 0)

/-- The sums of squares of the two halves of the rows, as one array (half, 1, 1). -/
def G4 (c : Dev nD) : Vec Ideal S2x1x1 .f32 := fun j =>
  ∑ h ∈ Finset.Ico (512 * (j 0).val) (512 * ((j 0).val + 1)), gRowSq m c h

theorem G4_apply (c : Dev nD) (q : Fin 2) :
    G4 m c (ix3 q (0 : Fin 1) (0 : Fin 1)) = ∑ h ∈ Finset.Ico (512 * q.val) (512 * (q.val + 1)), gRowSq m c h := rfl

theorem eq_ix3_block4 (j : S1x1x1.Idx) : j = ix3 (0 : Fin 1) (0 : Fin 1) (0 : Fin 1) := by
  funext a
  match a with
  | ⟨0, _⟩ => exact Fin.ext (by have h0 : (j 0).val < 1 := (j 0).isLt; show (j 0).val = 0; omega)
  | ⟨1, _⟩ => exact Fin.ext (by have h0 : (j 1).val < 1 := (j 1).isLt; show (j 1).val = 0; omega)
  | ⟨2, _⟩ => exact Fin.ext (by have h0 : (j 2).val < 1 := (j 2).isLt; show (j 2).val = 0; omega)

theorem blk4_at (c : Dev nD) (t : Fin cfg0.N) (h63 : t.val % 64 = 63) (j : S1x1x1.Idx) :
    (outsAt0 m c t.val t.isLt).2.2 j = G4 m c (((cfg0.win 4).blk t).view.emb j) := by
  have hN : t.val < 128 := lt_of_lt_of_eq t.isLt (show cfg0.N = 128 from N_0)
  obtain ⟨e0, e1, e2⟩ := index4 t
  have hemb : ((cfg0.win 4).blk t).view.emb j
      = ix3 (⟨t.val / 64, by omega⟩ : Fin 2) (0 : Fin 1) (0 : Fin 1) := by
    funext a
    apply Fin.ext
    match a with
    | ⟨0, _⟩ => show win0_4.index t 0 * 1 + 1 * (j 0).val = t.val / 64; have : (j 0).val < 1 := (j 0).isLt; omega
    | ⟨1, _⟩ => show win0_4.index t 1 * 1 + 1 * (j 1).val = 0; have : (j 1).val < 1 := (j 1).isLt; omega
    | ⟨2, _⟩ => show win0_4.index t 2 * 1 + 1 * (j 2).val = 0; have : (j 2).val < 1 := (j 2).isLt; omega
  rw [hemb, G4_apply]
  conv_lhs => rw [eq_ix3_block4 j]
  have h1 : 8 * (t.val - t.val % 64) = 512 * (t.val / 64) := by omega
  have h2 : 8 * (t.val + 1) = 512 * (t.val / 64 + 1) := by omega
  rw [(inv_all m c t.val t.isLt).2.2, h1, h2]

theorem flushed4_eq (c : Dev nD) (t : Fin cfg0.N) (hf : (cfg0.win 4).flush t = true) :
    (dats m 0 c).flushed 4 t = ((cfg0.win 4).blk t).view.read (Elt Ideal) (G4 m c) := by
  have h63 : t.val % 64 = 63 := (flush0_4 t).mp hf
  show (cfg0.win 4).cut (grid0.coords t) ((dats m 0 c).after 4 t) = _
  rw [after0_4]
  funext j
  exact blk4_at m c t h63 j

theorem cover4 (i : S2x1x1.Idx) : ∃ t : Fin cfg0.N, (cfg0.win 4).flush t = true ∧ i ∈ ((cfg0.win 4).blk t).view.set := by
  have hN : cfg0.N = 128 := N_0
  have hi0 : (i 0).val < 2 := (i 0).isLt
  have hi1 : (i 1).val < 1 := (i 1).isLt
  have hi2 : (i 2).val < 1 := (i 2).isLt
  let t : Fin cfg0.N := ⟨64 * (i 0).val + 63, by omega⟩
  have ht : t.val = 64 * (i 0).val + 63 := rfl
  obtain ⟨e0, e1, e2⟩ := index4 t
  refine ⟨t, (flush0_4 t).mpr (by omega), ?_⟩
  show i ∈ ((View.whole main_v0_2).slice (win0_4.rect t)).set
  rw [View.set_slice_whole, Rect.mem_set_unit]
  intro a
  match a with
  | ⟨0, _⟩ => show win0_4.index t 0 * 1 ≤ (i 0).val ∧ (i 0).val < win0_4.index t 0 * 1 + 1; omega
  | ⟨1, _⟩ => show win0_4.index t 1 * 1 ≤ (i 1).val ∧ (i 1).val < win0_4.index t 1 * 1 + 1; omega
  | ⟨2, _⟩ => show win0_4.index t 2 * 1 ≤ (i 2).val ∧ (i 2).val < win0_4.index t 2 * 1 + 1; omega

/-- The sums of squares after the region. -/
theorem final4 (c : Dev nD) : (dats m 0 c).arrAt 4 cfg0.N = G4 m c :=
  (dats m 0 c).arrAt_eq_of_cover 4 (G4 m c) (flushed4_eq m c) cover4

end Cert.KernelIdeal.Final
end
-- ==== Proof.KTailDef.lean ====
/-
  The arithmetic that follows the kernel, as one function of the kernel's three result arrays: the two halves'
  per-label sums a0 (half, channel, label), per-label sizes a1 (half, 1, label) and sums of squares a2 (half, 1, 1).

  The halves are added (S, C, Q); the mean table is M = S / max(C, 1), the size broadcast over the channels; and the
  value is (Q - 2 * sum(M * S)) + sum_k C k * sum_d (M d k)^2.
-/
import proofs.«424122_j85469849190579_3_alg».proof.KernelIdeal
import Idealize.ShloMosaic.Lib.ValueIdx
import Idealize.ShloMosaic.PureOps.Ideal

noncomputable section

namespace Cert.KernelIdeal.Tail

open Idealize.ShloMosaic Cert.KernelIdeal
open Cert.KernelIdeal.Facts₀ Cert.KernelIdeal.Facts

variable {F : FTy → Type} [FloatOps F] [Cert.KernelIdeal.Facts]

/-- The two halves' sums added: (channel, label). -/
def sums (a0 : Vec F S2x64x1024 .f32) : Vec F S64x1024 .f32 :=
  Host.reduceAdd a0 (constant S_ .f32 0x00000000#32) reducesTo_S2x64x1024_S64x1024_d0 h_S_

/-- The two halves' sizes added, as a vector over the labels. -/
def counts (a1 : Vec F S2x1x1024 .f32) : Vec F S1024 .f32 :=
  shapeCast S1024 (Host.reduceAdd a1 (constant S_ .f32 0x00000000#32) reducesTo_S2x1x1024_S1x1024_d0 h_S_) shapeCasts_S1x1024_S1024

/-- The two halves' sums of squares added. -/
def squares (a2 : Vec F S2x1x1 .f32) : Vec F S_ .f32 :=
  Host.reduceAdd a2 (constant S_ .f32 0x00000000#32) reducesTo_S2x1x1_S_d0_1_2 h_S_

/-- The mean table: sums over the larger of size and one. -/
def means (a0 : Vec F S2x64x1024 .f32) (a1 : Vec F S2x1x1024 .f32) : Vec F S64x1024 .f32 :=
  Host.divf (sums a0)
    (broadcastInDim S64x1024 ![0, 1] bcast_S1x1024_S64x1024_0_1
      (broadcastInDim S1x1024 ![1] bcast_S1024_S1x1024_1
        (maximumf (counts a1) (broadcastInDim S1024 ![] bcast_S_S1024 (constant S_ .f32 0x3F800000#32)))))

/-- The value. -/
def value (a0 : Vec F S2x64x1024 .f32) (a1 : Vec F S2x1x1024 .f32) (a2 : Vec F S2x1x1 .f32) : Vec F S_ .f32 :=
  addf
    (subf (squares a2)
      (mulf (constant S_ .f32 0x40000000#32)
        (Host.reduceAdd (mulf (means a0 a1) (sums a0)) (constant S_ .f32 0x00000000#32) reducesTo_S64x1024_S_d0_1 h_S_)))
    (Host.reduceAdd
      (mulf (counts a1)
        (Host.reduceAdd (mulf (means a0 a1) (means a0 a1)) (constant S_ .f32 0x00000000#32) reducesTo_S64x1024_S1024_d0 h_S_))
      (constant S_ .f32 0x00000000#32) reducesTo_S1024_S_d0 h_S_)

/-! The same quantities entry by entry, over the extended reals. -/

open Idealize.ShloMosaic.ValueIdx

/-- Label k's sum in channel d: the two halves added. -/
def tsum (a0 : Vec Ideal S2x64x1024 .f32) (d : Fin 64) (k : Fin 1024) : EReal :=
  a0 (ix3 (0 : Fin 2) d k) + a0 (ix3 (1 : Fin 2) d k)

/-- Label k's size: the two halves added. -/
def tcnt (a1 : Vec Ideal S2x1x1024 .f32) (k : Fin 1024) : EReal :=
  a1 (ix3 (0 : Fin 2) (0 : Fin 1) k) + a1 (ix3 (1 : Fin 2) (0 : Fin 1) k)

/-- Label k's mean in channel d. -/
def tmean (a0 : Vec Ideal S2x64x1024 .f32) (a1 : Vec Ideal S2x1x1024 .f32) (d : Fin 64) (k : Fin 1024) : EReal :=
  Ideal.div (tsum a0 d k) (max (tcnt a1 k) 1)

end Cert.KernelIdeal.Tail

end
-- ==== Proof.KTailApply.lean ====
/-
  The arithmetic after the kernel, read entry by entry over the extended reals.

  A sum of an array over its leading axis of extent two is the sum of its two halves; a sum over every axis into a
  scalar is the sum over every index, which splits into the sums over the coordinates; every initial value is zero; a
  scalar spread over an array reads the scalar everywhere, an array spread along a new axis reads the old entry, and a
  one-row table reshaped to a vector reads the row's entry.  Stage by stage this gives the added halves (sums, sizes,
  squares), the mean table, and the value, as the formula in the entrywise quantities.
-/
import proofs.«424122_j85469849190579_3_alg».proof.Proof.KTailDef
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import Mathlib.Algebra.BigOperators.Fin
import Mathlib.Data.Fintype.BigOperators

noncomputable section

open scoped BigOperators

namespace Cert.KernelIdeal.TailApply

open Cert.KernelIdeal Cert.KernelIdeal.Tail Idealize.ShloMosaic Idealize.ShloMosaic.ValueIdx
open Cert.KernelIdeal.Facts₀ Cert.KernelIdeal.Facts

variable [Cert.KernelIdeal.Facts]

/-! ### Sums over index sets of rank one and three, by coordinates -/

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ### The index a sum over the leading axis inserts -/

/-- Over a rank-2 result index (b, c), the rank-3 source index with leading coordinate a is (a, b, c). -/
theorem lift3_0 {n0 n1 n2 : Nat} (h : (⟨3, ![n0, n1, n2]⟩ : Shape).Reduces [0] ⟨2, ![n1, n2]⟩)
    (a : Fin n0) (b : Fin n1) (c : Fin n2) : h.lift (ix2 b c) a = ix3 a b c := by
  funext e
  apply Fin.ext
  match e with
  | ⟨0, _⟩ => rfl
  | ⟨1, _⟩ => rfl
  | ⟨2, _⟩ => rfl

/-- Over a rank-1 result index b, the rank-2 source index with leading coordinate a is (a, b). -/
theorem lift2_0 {n0 n1 : Nat} (h : (⟨2, ![n0, n1]⟩ : Shape).Reduces [0] ⟨1, ![n1]⟩)
    (a : Fin n0) (b : Fin n1) : h.lift (ix1 b) a = ix2 a b := by
  funext e
  apply Fin.ext
  match e with
  | ⟨0, _⟩ => rfl
  | ⟨1, _⟩ => rfl

/-- The initial value of every sum here is zero. -/
theorem init_zero (i : S_.Idx) : constant (F := Ideal) S_ .f32 0x00000000#32 i = 0 :=
  Ideal.ofBits_zero_f32

/-! ### The stages -/

/-- The added halves of the sums, at (channel, label). -/
theorem sums_apply (a0 : Vec Ideal S2x64x1024 .f32) (d : Fin 64) (k : Fin 1024) :
    sums (F := Ideal) a0 (ix2 d k) = tsum a0 d k := by
  have h' : S2x64x1024.ReducesTo [0] S64x1024 := reducesTo_S2x64x1024_S64x1024_d0
  have h : S2x64x1024.Reduces [0] S64x1024 := ⟨h'.1, Nat.two_pos, h'.2⟩
  unfold Tail.sums Tail.tsum
  rw [hostReduceAdd_apply, Ideal.hostReduceAdd_single _ h, init_zero, zero_add]
  refine (Fin.sum_univ_two (fun i : Fin 2 => a0 (h.lift (ix2 d k) i))).trans ?_
  rw [lift3_0 h, lift3_0 h]

/-- The added halves of the sizes, at a label: the one-row table reshaped to a vector reads the row's entry. -/
theorem counts_apply (a1 : Vec Ideal S2x1x1024 .f32) (k : Fin 1024) :
    counts (F := Ideal) a1 (ix1 k) = tcnt a1 k := by
  have h' : S2x1x1024.ReducesTo [0] S1x1024 := reducesTo_S2x1x1024_S1x1024_d0
  have h : S2x1x1024.Reduces [0] S1x1024 := ⟨h'.1, Nat.two_pos, h'.2⟩
  unfold Tail.counts Tail.tcnt
  rw [shapeCast_apply _ shapeCasts_S1x1024_S1024 (ix1 k) (ix2 (0 : Fin 1) k)
    (by rw [Shape.rowMajor_val_two, Shape.rowMajor_val_one]; show (0 : Nat) * 1024 + k.val = k.val; omega)]
  rw [hostReduceAdd_apply, Ideal.hostReduceAdd_single _ h, init_zero, zero_add]
  refine (Fin.sum_univ_two (fun i : Fin 2 => a1 (h.lift (ix2 (0 : Fin 1) k) i))).trans ?_
  rw [lift3_0 h, lift3_0 h]

/-- The added halves of the sums of squares: the sum over every index of an array of two entries. -/
theorem squares_apply (a2 : Vec Ideal S2x1x1 .f32) (j : S_.Idx) :
    squares (F := Ideal) a2 j
      = a2 (ix3 (0 : Fin 2) (0 : Fin 1) (0 : Fin 1)) + a2 (ix3 (1 : Fin 2) (0 : Fin 1) (0 : Fin 1)) := by
  unfold Tail.squares
  rw [hostReduceAdd_apply, Ideal.hostReduceAdd_total _ (fun b => b.elim0), init_zero, zero_add, sum_idx3,
    Fin.sum_univ_two]
  simp only [Fin.sum_univ_one]

/-- The bit pattern of the constant two is two. -/
theorem ofBits_two_f32 : Ideal.ofBits .f32 0x40000000#32 = 2 := by
  rw [show (2 : EReal) = ((2 : ℝ) : EReal) by norm_cast]
  simp [Ideal.ofBits, Ideal.ieee, -EReal.coe_mul]; norm_num

/-- The divisor of the mean table at (channel, label): the larger of the label's size and one.  The size vector is
    spread along a new leading axis of extent one and then over the channels; the scalar one is spread over the
    labels. -/
theorem divisor_apply (a1 : Vec Ideal S2x1x1024 .f32) (d : Fin 64) (k : Fin 1024) :
    broadcastInDim S64x1024 ![0, 1] bcast_S1x1024_S64x1024_0_1
      (broadcastInDim S1x1024 ![1] bcast_S1024_S1x1024_1
        (maximumf (counts (F := Ideal) a1)
          (broadcastInDim S1024 ![] bcast_S_S1024 (constant (F := Ideal) S_ .f32 0x3F800000#32)))) (ix2 d k)
      = max (tcnt a1 k) 1 := by
  rw [broadcastInDim_apply _ bcast_S1x1024_S64x1024_0_1 _ (ix2 d k) (ix2 (0 : Fin 1) k) (fun a => match a with
    | ⟨0, _⟩ => by show (0 : Nat) = if (1 : Nat) = 1 then 0 else d.val; rw [if_pos rfl]
    | ⟨1, _⟩ => by show k.val = if (1024 : Nat) = 1 then 0 else k.val; rw [if_neg (by decide)])]
  rw [broadcastInDim_apply _ bcast_S1024_S1x1024_1 _ (ix2 (0 : Fin 1) k) (ix1 k) (fun a => match a with
    | ⟨0, _⟩ => by show k.val = if (1024 : Nat) = 1 then 0 else k.val; rw [if_neg (by decide)])]
  rw [maximumf_apply, counts_apply, broadcastInDim_scalar_apply, constant_apply, Ideal.ofBits_one_f32]

/-- The mean table at (channel, label). -/
theorem means_apply (a0 : Vec Ideal S2x64x1024 .f32) (a1 : Vec Ideal S2x1x1024 .f32) (d : Fin 64) (k : Fin 1024) :
    means (F := Ideal) a0 a1 (ix2 d k) = tmean a0 a1 d k := by
  unfold Tail.means Tail.tmean
  rw [hostDivf_apply, sums_apply, divisor_apply]

/-- The sum over channels and labels of mean times sum. -/
theorem meanSum_apply (a0 : Vec Ideal S2x64x1024 .f32) (a1 : Vec Ideal S2x1x1024 .f32) (j : S_.Idx) :
    Host.reduceAdd (F := Ideal) (mulf (means a0 a1) (sums a0)) (constant S_ .f32 0x00000000#32)
        reducesTo_S64x1024_S_d0_1 h_S_ j
      = ∑ d : Fin 64, ∑ k : Fin 1024, tmean a0 a1 d k * Tail.tsum a0 d k := by
  rw [hostReduceAdd_apply, Ideal.hostReduceAdd_total _ (fun b => b.elim0), init_zero, zero_add, sum_idx2]
  refine Finset.sum_congr rfl fun d _ => Finset.sum_congr rfl fun k _ => ?_
  rw [mulf_apply, means_apply, sums_apply]

/-- The sum over channels of the squared mean, at a label. -/
theorem meanSq_apply (a0 : Vec Ideal S2x64x1024 .f32) (a1 : Vec Ideal S2x1x1024 .f32) (k : Fin 1024) :
    Host.reduceAdd (F := Ideal) (mulf (means a0 a1) (means a0 a1)) (constant S_ .f32 0x00000000#32)
        reducesTo_S64x1024_S1024_d0 h_S_ (ix1 k)
      = ∑ d : Fin 64, tmean a0 a1 d k * tmean a0 a1 d k := by
  have h' : S64x1024.ReducesTo [0] S1024 := reducesTo_S64x1024_S1024_d0
  have h : S64x1024.Reduces [0] S1024 := ⟨h'.1, Nat.one_pos, h'.2⟩
  rw [hostReduceAdd_apply, Ideal.hostReduceAdd_single _ h, init_zero, zero_add]
  show ∑ d : Fin 64, mulf (means a0 a1) (means a0 a1) (h.lift (ix1 k) d) = _
  refine Finset.sum_congr rfl fun d _ => ?_
  rw [lift2_0 h, mulf_apply, means_apply]

/-- The value, as the formula in the entrywise sums, sizes and means. -/
theorem value_apply (a0 : Vec Ideal S2x64x1024 .f32) (a1 : Vec Ideal S2x1x1024 .f32) (a2 : Vec Ideal S2x1x1 .f32) (j : S_.Idx) :
    value (F := Ideal) a0 a1 a2 j
      = ((a2 (ix3 (0 : Fin 2) (0 : Fin 1) (0 : Fin 1)) + a2 (ix3 (1 : Fin 2) (0 : Fin 1) (0 : Fin 1)))
          - 2 * ∑ d : Fin 64, ∑ k : Fin 1024, tmean a0 a1 d k * tsum a0 d k)
        + ∑ k : Fin 1024, tcnt a1 k * ∑ d : Fin 64, tmean a0 a1 d k * tmean a0 a1 d k := by
  unfold Tail.value
  rw [addf_apply, subf_apply, mulf_apply, squares_apply, constant_apply, ofBits_two_f32, meanSum_apply]
  congr 1
  rw [hostReduceAdd_apply, Ideal.hostReduceAdd_total _ (fun b => b.elim0), init_zero, zero_add, sum_idx1]
  refine Finset.sum_congr rfl fun k _ => ?_
  rw [mulf_apply, counts_apply, meanSq_apply]

end Cert.KernelIdeal.TailApply

end
-- ==== Proof.KRun.lean ====
/-
  The kernel program's run, read at its result.

  After the kernel region, twenty-six host operations follow: they add the two halves of the region's three result
  arrays, form the mean table, and combine the sums into one number.  Run from any contents of the buffers, those
  operations leave in the result buffer the tail arithmetic (Tail.value) of whatever the contents have at the three
  result arrays; the region's exit contents have there the arrays the region leaves; and the result buffer, being no
  array of the region and not scoped, is read back at the end as the operations leave it.  The two arguments are
  staged inputs of the region, which returns them as they were.
-/
import proofs.«424122_j85469849190579_3_alg».proof.Proof.Gen.KernelIdeal.Frame
import proofs.«424122_j85469849190579_3_alg».proof.Proof.KTailDef
import Idealize.ShloMosaic.Lib.Pipeline.Value
import Idealize.ShloMosaic.Lib.StableHlo.Run
import Idealize.ShloMosaic.Lib.Tactic

noncomputable section

namespace Cert.KernelIdeal.Run

open Cert.KernelIdeal Cert.KernelIdeal.Gen Idealize.ShloMosaic Idealize.ShloMosaic.TcCoe Idealize.SL.Sem
open Idealize.ShloMosaic.Pipeline (Dat)

variable {F : FTy → Type} [FloatOps F]

/-- The operations after the region, run from any contents V of the buffers: the result buffer holds the tail
    arithmetic of what V has at the kernel's three result arrays. -/
theorem tail_fold (V : Valuation τ sig (Elt F)) :
    StableHlo.after hostOps1 V (Proc.devRef .tc main_v18)
      = Cert.KernelIdeal.Tail.value (V (Proc.devRef .tc main_v0_0)) (V (Proc.devRef .tc main_v0_1)) (V (Proc.devRef .tc main_v0_2)) := by
  open Idealize.ShloMosaic.StableHlo in after_results_simp
  rfl

variable (m : (ℓ : Loc nD τ sig) → Buf (Elt F) ℓ) (ρ : Dev nD → PrngReg)

/-- After the region and the operations that follow it, the result buffer holds the tail arithmetic of the three
    arrays the region leaves: the region's exit contents have exactly those at the kernel's result arrays. -/
theorem tail_eq (c : Dev nD) :
    Pipeline.afterTail₀ cfgs (dats m) 0 (V0 m) [hostOps1] c main_v18
      = Cert.KernelIdeal.Tail.value ((dats m 0 c).arrAt 2 cfg0.N) ((dats m 0 c).arrAt 3 cfg0.N) ((dats m 0 c).arrAt 4 cfg0.N) := by
  have e2 : Pipeline.withArrays spec0 c (V0 m c) (fun w => (dats m 0 c).arrAt w cfg0.N) (Proc.devRef .tc main_v0_0)
      = (dats m 0 c).arrAt 2 cfg0.N := Pipeline.withArrays_arr spec0 launch0.win.arr_inj c _ _ 2
  have e3 : Pipeline.withArrays spec0 c (V0 m c) (fun w => (dats m 0 c).arrAt w cfg0.N) (Proc.devRef .tc main_v0_1)
      = (dats m 0 c).arrAt 3 cfg0.N := Pipeline.withArrays_arr spec0 launch0.win.arr_inj c _ _ 3
  have e4 : Pipeline.withArrays spec0 c (V0 m c) (fun w => (dats m 0 c).arrAt w cfg0.N) (Proc.devRef .tc main_v0_2)
      = (dats m 0 c).arrAt 4 cfg0.N := Pipeline.withArrays_arr spec0 launch0.win.arr_inj c _ _ 4
  unfold Pipeline.afterTail₀
  show StableHlo.after hostOps1 (Pipeline.withArrays spec0 c (V0 m c) fun w => (dats m 0 c).arrAt w cfg0.N)
      (Proc.devRef .tc main_v18) = _
  rw [tail_fold, e2, e3, e4]

/-- The result buffer is no window's array and is not scoped, so the region passes it by. -/
theorem main_v18_rest : main_v18 ∈ Pipeline.restRefs sig spec0 :=
  Pipeline.mem_restRefs_of main_v18 rfl (by decide)

/-- Every weakly fair execution of the program terminates with the result buffer at the tail arithmetic of the
    three arrays the region leaves, and with the two arguments as they were. -/
theorem run_value : θ_run defs (onTc (τ := τ) (main (F := F))) ⟨m, fun _ => 0, ρ⟩ fun r => ∀ c : Dev nD,
    r.2.mem ((c.tc : Thread nD τ).loc main_v18)
        = Cert.KernelIdeal.Tail.value ((dats m 0 c).arrAt 2 cfg0.N) ((dats m 0 c).arrAt 3 cfg0.N) ((dats m 0 c).arrAt 4 cfg0.N)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨((h c).2 main_v18 main_v18_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Run

end
-- ==== Proof.KValue.lean ====
/-
  The kernel program's result is the one-pass value of the image and the label map.

  The two halves' arrays added are the whole image's per-label sums, sizes and sum of squares (the rows 0 … 511 and
  512 … 1023 together are all rows), and the arithmetic after the kernel is the one-pass formula of those.
-/
import proofs.«424122_j85469849190579_3_alg».proof.Proof.KFinal
import proofs.«424122_j85469849190579_3_alg».proof.Proof.KTailApply
import proofs.«424122_j85469849190579_3_alg».proof.Proof.KRun

set_option maxRecDepth 16384

noncomputable section

open scoped BigOperators
open Idealize.ShloMosaic Idealize.ShloMosaic.TcCoe Idealize.SL.Sem Idealize.ShloMosaic.ValueIdx

namespace Cert.KernelIdeal.Value

open Cert.KernelIdeal Cert.KernelIdeal.Gen Cert.KernelIdeal.Invariant Cert.KernelIdeal.Final Cert.KernelIdeal.Tail
open Idealize.ShloMosaic.Pipeline (Dat)

variable (m : (ℓ : Loc nD τ sig) → Buf (Elt Ideal) ℓ)

/-- The rows of the first half and of the second half are all the rows. -/
theorem sum_halves (g : ℕ → EReal) :
    (∑ h ∈ Finset.Ico (512 * ((0 : Fin 2) : ℕ)) (512 * (((0 : Fin 2) : ℕ) + 1)), g h)
      + ∑ h ∈ Finset.Ico (512 * ((1 : Fin 2) : ℕ)) (512 * (((1 : Fin 2) : ℕ) + 1)), g h
      = ∑ h : Fin 1024, g h.val := by
  show (∑ h ∈ Finset.Ico 0 512, g h) + ∑ h ∈ Finset.Ico 512 1024, g h = _
  rw [Finset.sum_Ico_consecutive g (by norm_num) (by norm_num), ← Finset.range_eq_Ico, Finset.sum_range]

theorem tsum_eq (c : Dev nD) (d : Fin 64) (k : Fin 1024) :
    Tail.tsum (G2 m c) d k = Cert.Spec.segSum (img m c) (lab m c) d k.val := by
  unfold Tail.tsum
  rw [G2_apply, G2_apply, sum_halves]
  unfold Cert.Spec.segSum
  exact Finset.sum_congr rfl fun h _ => dif_pos h.isLt

theorem tcnt_eq (c : Dev nD) (k : Fin 1024) :
    Tail.tcnt (G3 m c) k = Cert.Spec.segCnt (lab m c) k.val := by
  unfold Tail.tcnt
  rw [G3_apply, G3_apply, sum_halves]
  unfold Cert.Spec.segCnt
  exact Finset.sum_congr rfl fun h _ => dif_pos h.isLt

theorem tsq_eq (c : Dev nD) :
    G4 m c (ix3 (0 : Fin 2) (0 : Fin 1) (0 : Fin 1)) + G4 m c (ix3 (1 : Fin 2) (0 : Fin 1) (0 : Fin 1))
      = Cert.Spec.sumSq (img m c) := by
  rw [G4_apply, G4_apply, sum_halves]
  unfold Cert.Spec.sumSq
  exact Finset.sum_congr rfl fun h _ => dif_pos h.isLt

theorem tmean_eq (c : Dev nD) (d : Fin 64) (k : Fin 1024) :
    Tail.tmean (G2 m c) (G3 m c) d k = Cert.Spec.segMean (img m c) (lab m c) d k.val := by
  unfold Tail.tmean Cert.Spec.segMean
  rw [tsum_eq, tcnt_eq]

/-- The arithmetic after the kernel, of the arrays the kernel leaves, is the one-pass value. -/
theorem value_eq (c : Dev nD) :
    Tail.value (F := Ideal) ((dats m 0 c).arrAt 2 cfg0.N) ((dats m 0 c).arrAt 3 cfg0.N) ((dats m 0 c).arrAt 4 cfg0.N)
      = fun _ => Cert.Spec.onePass (img m c) (lab m c) := by
  rw [final2, final3, final4]
  funext j
  rw [Cert.KernelIdeal.TailApply.value_apply, tsq_eq]
  unfold Cert.Spec.onePass
  simp only [tsum_eq, tcnt_eq, tmean_eq]

/-- The kernel program runs; its result is the one-pass value of its arguments, which end unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v18)
          = (fun _ => Cert.Spec.onePass (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (value_eq m c), (h c).2⟩) (Cert.KernelIdeal.Run.run_value m ρ)

end Cert.KernelIdeal.Value

end
-- ==== Proof.LibScatter.lean ====
/-
  The host's accumulating scatter and its gather READ AT AN INDEX, at the ideal instance, for the two shapes a
  segment sum and a take along axis 0 have: a vector [N] (indices [M, 1], updates [M]) and rows [N, C] (indices
  [M, 1], updates [M, C]). Every lemma is over an arbitrary dimension-number record whose fields are fixed by
  hypotheses, each closed by rfl on a program's own record.

  scatterAdd_vec / scatterAdd_rows: the scatter at an element is the operand's element plus the sum, over the
  updates (rows), of those whose start index read SIGNED is the element's (row) index; scatterAdd_vec_toNat /
  scatterAdd_rows_toNat: the same with the index read unsigned, for 32-bit indices and N < 2³¹. gather_vec /
  gather_rows: the gather at a position whose start index is in range is the operand at that index.
  pad_vec_apply / pad_rows_apply: a padding after the end (of the rows) at an index; concatenate_vec_left /
  concatenate_vec_right: two vectors end to end at an index. sum_idx1, sum_fin_split, sum_fin_padded: a sum over a
  rank-1 index set, over a range cut in two, over a padded range.
-/
import Idealize.ShloMosaic.Lib.ValueIdx
import Idealize.ShloMosaic.Lib.StableHlo.Predicate
import Idealize.ShloMosaic.Lib.Pipeline.Value
import Mathlib.Algebra.BigOperators.Fin

noncomputable section

open scoped BigOperators

namespace Cert.LibScatter

open Idealize.ShloMosaic Idealize.ShloMosaic.ValueIdx

/-! ## Where an update lands: the vector shape -/

/-- For an operand [N], scatter indices [M, 1] and updates [M] (one inserted window axis, no update window axis):
    update j lands on element i exactly when its start index, read signed, is i. -/
theorem resultIdx?_vec {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (idx : IVec ⟨2, ![M, 1]⟩ w) (j : Fin M) (i : Fin N) :
    d.resultIdx? (ix1 j) idx = some (ix1 i) ↔ (idx (ix2 j (0 : Fin 1))).toInt = (i.val : ℤ) := by
  obtain ⟨uw, iw, sd, iv, wf⟩ := d
  simp only at h1 h2 h3 h4
  subst h1 h2 h3 h4
  have hstart : ∀ a, ScatterDims.start ⟨[], [0], [0], 1, wf⟩ (ix1 j) idx a = (idx (ix2 j (0 : Fin 1))).toInt := by
    intro a
    obtain rfl : a = 0 := Subsingleton.elim _ _
    unfold ScatterDims.start
    rw [dif_pos (List.mem_singleton.mpr rfl)]
    congr 2
    funext b
    match b with
    | ⟨0, _⟩ => rfl
    | ⟨1, _⟩ => rfl
  have hwin : ∀ a, ScatterDims.window ⟨[], [0], [0], 1, wf⟩ (ix1 j) a = 0 := by
    intro a
    obtain rfl : a = 0 := Subsingleton.elim _ _
    unfold ScatterDims.window
    rw [dif_neg (by simp [ScatterDims.sKept, Shape.kept])]
  unfold ScatterDims.resultIdx?
  simp only [hstart, hwin, Nat.cast_zero, add_zero]
  constructor
  · intro h
    split_ifs at h with hc
    have h0 := congrArg Fin.val (congrFun (Option.some.inj h) 0)
    have hc0 := hc 0
    simp only [Matrix.cons_val_zero] at hc0
    change (idx (ix2 j (0 : Fin 1))).toInt.toNat = i.val at h0
    omega
  · intro h
    have hc : ∀ a : Fin 1, 0 ≤ (idx (ix2 j (0 : Fin 1))).toInt ∧ (idx (ix2 j (0 : Fin 1))).toInt < ((![N] a : ℕ) : ℤ) := by
      intro a
      obtain rfl : a = 0 := Subsingleton.elim _ _
      simp only [Matrix.cons_val_zero]
      have := i.isLt
      omega
    rw [dif_pos hc]
    congr 1
    funext a
    obtain rfl : a = 0 := Subsingleton.elim _ _
    apply Fin.ext
    change (idx (ix2 j (0 : Fin 1))).toInt.toNat = i.val
    omega

/-! ## Where an update lands: rows -/

section Rows
variable {N C M w : Nat} (d : ScatterDims ⟨2, ![N, C]⟩ ⟨2, ![M, 1]⟩ ⟨2, ![M, C]⟩)
  (h1 : d.updateWindowDims = [1]) (h2 : d.insertedWindowDims = [0]) (h3 : d.scatterDimsToOperandDims = [0])
  (h4 : d.indexVectorDim = 1) (idx : IVec ⟨2, ![M, 1]⟩ w) (j : Fin M) (c' : Fin C)
include h1 h2 h3 h4

/-- On the row axis an update's window starts at its start index, read signed. -/
theorem start_rows_zero : d.start (ix2 j c') idx 0 = (idx (ix2 j (0 : Fin 1))).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- On the column axis, which the start index map does not name, the window starts at 0. -/
theorem start_rows_one : d.start (ix2 j c') idx 1 = 0 := by
  obtain ⟨uw, iw, sd, iv, wf⟩ := d
  simp only at h1 h2 h3 h4
  subst h1 h2 h3 h4
  unfold ScatterDims.start
  rw [dif_neg (by simp)]

/-- The row axis is an inserted window axis: the window coordinate there is 0. -/
theorem window_rows_zero : d.window (ix2 j c') 0 = 0 := by
  obtain ⟨uw, iw, sd, iv, wf⟩ := d
  simp only at h1 h2 h3 h4
  subst h1 h2 h3 h4
  unfold ScatterDims.window
  rw [dif_neg (by simp [ScatterDims.sKept, Shape.kept])]

/-- On the column axis the window coordinate is the update's column. -/
theorem window_rows_one : d.window (ix2 j c') 1 = c'.val := by
  obtain ⟨uw, iw, sd, iv, wf⟩ := d
  simp only at h1 h2 h3 h4
  subst h1 h2 h3 h4
  unfold ScatterDims.window
  rw [dif_pos (by simp [ScatterDims.sKept, Shape.kept])]
  rfl

/-- For an operand [N, C], scatter indices [M, 1] and updates [M, C] (the row axis inserted, the column axis the
    update window): update (j, c') lands on element (i, c) exactly when its start index, read signed, is i and
    c' = c. -/
theorem resultIdx?_rows (i : Fin N) (c : Fin C) :
    d.resultIdx? (ix2 j c') idx = some (ix2 i c) ↔ (idx (ix2 j (0 : Fin 1))).toInt = (i.val : ℤ) ∧ c' = c := by
  have s0 := start_rows_zero d h1 h2 h3 h4 idx j c'
  have s1 := start_rows_one d h1 h2 h3 h4 idx j c'
  have w0 := window_rows_zero d h1 h2 h3 h4 j c'
  have w1 := window_rows_one d h1 h2 h3 h4 j c'
  unfold ScatterDims.resultIdx?
  constructor
  · intro h
    split_ifs at h with hc
    have e := Option.some.inj h
    have e0 : (d.start (ix2 j c') idx 0 + (d.window (ix2 j c') 0 : ℕ)).toNat = i.val :=
      congrArg Fin.val (congrFun e 0)
    have e1 : (d.start (ix2 j c') idx 1 + (d.window (ix2 j c') 1 : ℕ)).toNat = c.val :=
      congrArg Fin.val (congrFun e 1)
    have hc0 := (hc 0).1
    rw [s0, w0] at e0 hc0
    rw [s1, w1] at e1
    refine ⟨by omega, Fin.ext (by omega)⟩
  · rintro ⟨ht, rfl⟩
    have hi := i.isLt
    have hc' := c'.isLt
    have hc : ∀ a : Fin 2, 0 ≤ d.start (ix2 j c') idx a + (d.window (ix2 j c') a : ℕ) ∧
        d.start (ix2 j c') idx a + (d.window (ix2 j c') a : ℕ) < ((![N, C] a : ℕ) : ℤ) := by
      refine Fin.forall_fin_two.mpr ⟨?_, ?_⟩
      · rw [s0, w0]; simp only [Matrix.cons_val_zero]; omega
      · rw [s1, w1]; simp only [Matrix.cons_val_one, Matrix.cons_val_zero]; omega
    rw [dif_pos hc]
    congr 1
    funext a
    apply Fin.ext
    revert a
    refine Fin.forall_fin_two.mpr ⟨?_, ?_⟩
    · show (d.start (ix2 j c') idx 0 + (d.window (ix2 j c') 0 : ℕ)).toNat = i.val
      rw [s0, w0]; omega
    · show (d.start (ix2 j c') idx 1 + (d.window (ix2 j c') 1 : ℕ)).toNat = c'.val
      rw [s1, w1]; omega

end Rows

/-! ## Sums over a rank-1 index set -/

/-- A rank-1 index set is its one coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-! ## The accumulating scatter read at an index -/

/-- (S1) The accumulating scatter into a VECTOR [N] at scatter indices [M, 1] with updates [M], read at element i:
    the operand's element plus the sum of the updates whose start index, read signed and not clamped, is i (an
    update whose index is outside the operand contributes nothing). -/
theorem scatterAdd_vec {φ : FTy} {N M w : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ w)
    (upd : FVec Ideal ⟨1, ![M]⟩ φ) (i : Fin N) :
    Host.scatterAdd (F := Ideal) d x idx upd (ix1 i) =
      x (ix1 i) + ∑ j : Fin M, if (idx (ix2 j (0 : Fin 1))).toInt = (i.val : ℤ) then upd (ix1 j) else 0 := by
  show x (ix1 i) + ∑ j ∈ Finset.univ.filter (fun j => d.resultIdx? j idx = some (ix1 i)), upd j = _
  congr 1
  rw [Finset.sum_filter, sum_idx1]
  exact Finset.sum_congr rfl fun j _ => if_congr (resultIdx?_vec d h1 h2 h3 h4 idx j i) rfl rfl

/-- (S2) The accumulating scatter of ROWS into [N, C] at scatter indices [M, 1] with updates [M, C], read at
    element (i, c): the operand's element plus the sum over the updates' rows whose start index, read signed and
    not clamped, is i, of their column c. -/
theorem scatterAdd_rows {φ : FTy} {N C M w : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ w)
    (upd : FVec Ideal ⟨2, ![M, C]⟩ φ) (i : Fin N) (c : Fin C) :
    Host.scatterAdd (F := Ideal) d x idx upd (ix2 i c) =
      x (ix2 i c) + ∑ j : Fin M, if (idx (ix2 j (0 : Fin 1))).toInt = (i.val : ℤ) then upd (ix2 j c) else 0 := by
  show x (ix2 i c) + ∑ jj ∈ Finset.univ.filter (fun jj => d.resultIdx? jj idx = some (ix2 i c)), upd jj = _
  congr 1
  rw [Finset.sum_filter, sum_idx2]
  refine Finset.sum_congr rfl fun j _ => ?_
  rw [Finset.sum_congr rfl fun b _ => if_congr (resultIdx?_rows d h1 h2 h3 h4 idx j b i c) rfl rfl]
  by_cases ht : (idx (ix2 j (0 : Fin 1))).toInt = (i.val : ℤ)
  · simp only [ht, true_and, if_true]
    rw [Finset.sum_ite_eq' Finset.univ c (fun b => upd (ix2 j b)), if_pos (Finset.mem_univ c)]
  · simp only [ht, false_and, if_false, Finset.sum_const_zero]

/-! ## The same with the start index read unsigned -/

/-- A word reads i signed exactly when it reads i unsigned, for i below half the word range (a word at or above
    half the range reads negative signed). -/
theorem toInt_eq_natCast_iff {w : Nat} (a : BitVec w) (i : Nat) (hi : 2 * i < 2 ^ w) :
    a.toInt = (i : ℤ) ↔ a.toNat = i := by
  have ha := a.isLt
  rw [BitVec.toInt_eq_toNat_cond]
  split_ifs with h
  · exact Nat.cast_inj
  · constructor
    · intro e
      have : (2 ^ w : ℤ) = ((2 ^ w : ℕ) : ℤ) := by push_cast; rfl
      omega
    · intro e
      omega

/-- (S1') The accumulating scatter into a vector [N], N < 2³¹, at 32-bit indices, read at element i, with the
    start index read UNSIGNED: an index at or above 2³¹ is negative read signed and lands nowhere, and it is not
    i read unsigned either. -/
theorem scatterAdd_vec_toNat {φ : FTy} {N M : Nat} (d : ScatterDims ⟨1, ![N]⟩ ⟨2, ![M, 1]⟩ ⟨1, ![M]⟩)
    (h1 : d.updateWindowDims = []) (h2 : d.insertedWindowDims = [0]) (h3 : d.scatterDimsToOperandDims = [0])
    (h4 : d.indexVectorDim = 1) (x : FVec Ideal ⟨1, ![N]⟩ φ) (idx : IVec ⟨2, ![M, 1]⟩ 32)
    (upd : FVec Ideal ⟨1, ![M]⟩ φ) (hN : N < 2 ^ 31) (i : Fin N) :
    Host.scatterAdd (F := Ideal) d x idx upd (ix1 i) =
      x (ix1 i) + ∑ j : Fin M, if (idx (ix2 j (0 : Fin 1))).toNat = i.val then upd (ix1 j) else 0 := by
  rw [scatterAdd_vec d h1 h2 h3 h4]
  congr 1
  refine Finset.sum_congr rfl fun j _ => if_congr ?_ rfl rfl
  exact toInt_eq_natCast_iff _ _ (by have := i.isLt; omega)

/-- (S2') The accumulating scatter of rows into [N, C], N < 2³¹, at 32-bit indices, read at element (i, c), with
    the start index read UNSIGNED. -/
theorem scatterAdd_rows_toNat {φ : FTy} {N C M : Nat} (d : ScatterDims ⟨2, ![N, C]⟩ ⟨2, ![M, 1]⟩ ⟨2, ![M, C]⟩)
    (h1 : d.updateWindowDims = [1]) (h2 : d.insertedWindowDims = [0]) (h3 : d.scatterDimsToOperandDims = [0])
    (h4 : d.indexVectorDim = 1) (x : FVec Ideal ⟨2, ![N, C]⟩ φ) (idx : IVec ⟨2, ![M, 1]⟩ 32)
    (upd : FVec Ideal ⟨2, ![M, C]⟩ φ) (hN : N < 2 ^ 31) (i : Fin N) (c : Fin C) :
    Host.scatterAdd (F := Ideal) d x idx upd (ix2 i c) =
      x (ix2 i c) + ∑ j : Fin M, if (idx (ix2 j (0 : Fin 1))).toNat = i.val then upd (ix2 j c) else 0 := by
  rw [scatterAdd_rows d h1 h2 h3 h4]
  congr 1
  refine Finset.sum_congr rfl fun j _ => if_congr ?_ rfl rfl
  exact toInt_eq_natCast_iff _ _ (by have := i.isLt; omega)

/-! ## The gather read at an index -/

/-- (G1) The gather from a VECTOR [N], N < 2³¹, at 32-bit start indices [M, 1] (the operand's one axis collapsed
    and start-indexed, the index vector on axis 1), read at result position j whose start index is in range: the
    operand at that index (in range nothing is clamped). -/
theorem gather_vec {α : Type} {N M : Nat} (d : GatherDims ⟨1, ![N]⟩ ⟨2, ![M, 1]⟩ ⟨1, ![M]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ 32) (hN : N < 2 ^ 31) (j : Fin M)
    (hr : (idx (ix2 j (0 : Fin 1))).toNat < N) :
    Host.gather d x idx (ix1 j) = x (ix1 ⟨(idx (ix2 j (0 : Fin 1))).toNat, hr⟩) := by
  have e1 : (ix1 j : (⟨1, ![M]⟩ : Shape).Idx) = Shape.Idx.ofFin j := by
    funext a
    obtain rfl : a = 0 := Subsingleton.elim _ _
    rfl
  have e2 : StableHlo.Predicate.ixP j = ix2 j (0 : Fin 1) := by
    funext b
    match b with
    | ⟨0, _⟩ => rfl
    | ⟨1, _⟩ => rfl
  rw [e1, StableHlo.Predicate.gather_take d hcoll hob hsim hivd x idx j (by omega)]
  congr 1
  funext a
  obtain rfl : a = 0 := Subsingleton.elim _ _
  apply Fin.ext
  show min (idx (StableHlo.Predicate.ixP j)).toInt.toNat (N - 1) = (idx (ix2 j (0 : Fin 1))).toNat
  rw [e2, StableHlo.Predicate.toInt_eq_toNat_of_lt (by omega), Int.toNat_natCast]
  omega

section GatherRows
variable {N C M w : Nat} (d : GatherDims ⟨2, ![N, C]⟩ ⟨2, ![M, 1]⟩ ⟨2, ![M, C]⟩)
  (hoff : d.offsetDims = [1]) (hcoll : d.collapsedSliceDims = [0]) (hob : d.operandBatchingDims = [])
  (hsim : d.startIndexMap = [0]) (hivd : d.indexVectorDim = 1) (j : Fin M) (c : Fin C)
include hoff hcoll hob hsim hivd

/-- Result position (j, c) reads its start index at (j, 0) of the start indices. -/
theorem siIdx_rows (k : Fin d.startIndexMap.length) : d.siIdx (ix2 j c) k = ix2 j (0 : Fin 1) := by
  obtain ⟨od, cd, ob, sb, sm, iv, ss, wf⟩ := d
  simp only at hoff hcoll hob hsim hivd
  subst hoff hcoll hob hsim hivd
  have hk : k.val = 0 := by
    have := k.isLt
    simpa using this
  funext b
  apply Fin.ext
  match b with
  | ⟨0, _⟩ => rfl
  | ⟨1, _⟩ => exact hk

/-- On the column axis the offset coordinate is the result's column. -/
theorem offCoord_rows_one : d.offCoord (ix2 j c) 1 = c.val := by
  obtain ⟨od, cd, ob, sb, sm, iv, ss, wf⟩ := d
  simp only at hoff hcoll hob hsim hivd
  subst hoff hcoll hob hsim hivd
  unfold GatherDims.offCoord
  rw [dif_pos (by simp [GatherDims.sKept, Shape.kept])]
  rfl

end GatherRows

/-- (G2) The gather of ROWS from [N, C], N < 2³¹, at 32-bit start indices [M, 1] (the row axis collapsed and
    start-indexed, the column axis the one offset axis, the index vector on axis 1), read at (j, c) when row j's
    start index is in range: the operand at that row, column c. -/
theorem gather_rows {α : Type} {N C M : Nat} (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ 32) (hN : N < 2 ^ 31) (j : Fin M) (c : Fin C)
    (hr : (idx (ix2 j (0 : Fin 1))).toNat < N) :
    Host.gather d x idx (ix2 j c) = x (ix2 ⟨(idx (ix2 j (0 : Fin 1))).toNat, hr⟩ c) := by
  have hb : ∀ a, a ∉ d.operandBatchingDims := by
    intro a
    rw [hob]
    exact List.not_mem_nil
  have hsl : d.sliceSizes 0 = 1 := d.slice_collapsed 0 (by rw [hcoll]; exact List.mem_singleton.mpr rfl)
  unfold Host.gather
  congr 1
  funext a
  apply Fin.ext
  revert a
  refine Fin.forall_fin_two.mpr ⟨?_, ?_⟩
  · show d.start (ix2 j c) idx 0 + d.batchCoord (ix2 j c) 0 + d.offCoord (ix2 j c) 0
      = (idx (ix2 j (0 : Fin 1))).toNat
    rw [d.batchCoord_eq_zero _ _ (hb _),
      d.offCoord_eq_zero _ _ (by rw [GatherDims.mem_sKept, hcoll]; simp)]
    unfold GatherDims.start
    rw [dif_pos (by rw [hsim]; exact List.mem_singleton.mpr rfl), siIdx_rows d hoff hcoll hob hsim hivd, hsl,
      StableHlo.Predicate.toInt_eq_toNat_of_lt (by omega), Int.toNat_natCast]
    show min (idx (ix2 j (0 : Fin 1))).toNat (N - 1) + 0 + 0 = _
    omega
  · show d.start (ix2 j c) idx 1 + d.batchCoord (ix2 j c) 1 + d.offCoord (ix2 j c) 1 = c.val
    rw [d.batchCoord_eq_zero _ _ (hb _), offCoord_rows_one d hoff hcoll hob hsim hivd]
    unfold GatherDims.start
    rw [dif_neg (by rw [hsim]; simp)]
    omega

/-! ## A padding and a two-piece concatenation along axis 0, read at an index -/

/-- (P) A VECTOR [N] padded after its end only (low 0, interior 0) to [T], read at k: the vector below its extent,
    the padding scalar at or above it. -/
theorem pad_vec_apply {α : Type} {N T : Nat} (hi : Fin 1 → Nat) (x : (⟨1, ![N]⟩ : Shape).Idx → α)
    (v : (⟨0, ![]⟩ : Shape).Idx → α) (h : (⟨1, ![N]⟩ : Shape).Pads ![0] hi ![0] ⟨1, ![T]⟩)
    (hu : 0 < (⟨0, ![]⟩ : Shape).numel) (k : Fin T) :
    pad ⟨1, ![T]⟩ ![0] hi ![0] x v h hu (ix1 k) = if hk : k.val < N then x (ix1 ⟨k.val, hk⟩) else v ix0 := by
  unfold pad
  split_ifs with hin hk hk
  · congr 1
    funext a
    obtain rfl : a = 0 := Subsingleton.elim _ _
    apply Fin.ext
    show (k.val - 0) / (0 + 1) = k.val
    omega
  · exfalso
    have := (hin 0).2.2
    change (k.val - 0) / (0 + 1) < N at this
    omega
  · exfalso
    refine hin fun a => ?_
    obtain rfl : a = 0 := Subsingleton.elim _ _
    show 0 ≤ k.val ∧ (k.val - 0) % (0 + 1) = 0 ∧ (k.val - 0) / (0 + 1) < N
    omega
  · exact congrArg v (eq_ix0 _)

/-- (P) ROWS [N, C] padded after the last row only (low 0, interior 0; the column axis not padded) to [T, C], read
    at (k, c): the rows below their extent, the padding scalar at or above it. -/
theorem pad_rows_apply {α : Type} {N C T : Nat} (hi : Fin 2 → Nat) (x : (⟨2, ![N, C]⟩ : Shape).Idx → α)
    (v : (⟨0, ![]⟩ : Shape).Idx → α) (h : (⟨2, ![N, C]⟩ : Shape).Pads ![0, 0] hi ![0, 0] ⟨2, ![T, C]⟩)
    (hu : 0 < (⟨0, ![]⟩ : Shape).numel) (k : Fin T) (c : Fin C) :
    pad ⟨2, ![T, C]⟩ ![0, 0] hi ![0, 0] x v h hu (ix2 k c)
      = if hk : k.val < N then x (ix2 ⟨k.val, hk⟩ c) else v ix0 := by
  have hc := c.isLt
  unfold pad
  split_ifs with hin hk hk
  · congr 1
    funext a
    apply Fin.ext
    revert a
    refine Fin.forall_fin_two.mpr ⟨?_, ?_⟩
    · show (k.val - 0) / (0 + 1) = k.val
      omega
    · show (c.val - 0) / (0 + 1) = c.val
      omega
  · exfalso
    have := (hin 0).2.2
    change (k.val - 0) / (0 + 1) < N at this
    omega
  · exfalso
    refine hin (Fin.forall_fin_two.mpr ⟨?_, ?_⟩)
    · show 0 ≤ k.val ∧ (k.val - 0) % (0 + 1) = 0 ∧ (k.val - 0) / (0 + 1) < N
      omega
    · show 0 ≤ c.val ∧ (c.val - 0) % (0 + 1) = 0 ∧ (c.val - 0) / (0 + 1) < C
      omega
  · exact congrArg v (eq_ix0 _)

/-- (C) Two vectors [N₁], [N₂] concatenated to [T], read at a position below the first extent: the first. -/
theorem concatenate_vec_left {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : k.val < N₁) :
    concatenate ⟨1, ![T]⟩ 0 [⟨⟨1, ![N₁]⟩, a⟩, ⟨⟨1, ![N₂]⟩, b⟩] h (ix1 k) = a (ix1 ⟨k.val, hk⟩) := by
  refine concatenate_pair_apply_left 0 a b h (ix1 k) rfl (ix1 ⟨k.val, hk⟩) fun c => ?_
  obtain rfl : c = 0 := Subsingleton.elim _ _
  rfl

/-- (C) Two vectors [N₁], [N₂] concatenated to [T], read at a position at or above the first extent: the second,
    the first extent less. -/
theorem concatenate_vec_right {α : Type} {N₁ N₂ T : Nat} (a : (⟨1, ![N₁]⟩ : Shape).Idx → α)
    (b : (⟨1, ![N₂]⟩ : Shape).Idx → α)
    (h : Shape.Concatenates [(⟨1, ![N₁]⟩ : Shape), ⟨1, ![N₂]⟩] ⟨1, ![T]⟩ 0) (k : Fin T) (hk : N₁ ≤ k.val)
    (hk2 : k.val - N₁ < N₂) :
    concatenate ⟨1, ![T]⟩ 0 [⟨⟨1, ![N₁]⟩, a⟩, ⟨⟨1, ![N₂]⟩, b⟩] h (ix1 k) = b (ix1 ⟨k.val - N₁, hk2⟩) := by
  refine concatenate_pair_apply_right 0 a b h (ix1 k) rfl rfl (ix1 ⟨k.val - N₁, hk2⟩) (fun c hc => ?_) ?_
  · obtain rfl : c = 0 := Subsingleton.elim _ _
    exact absurd rfl hc
  · show k.val - N₁ + N₁ = k.val
    omega

/-! ## Sums over a range cut in two, and over a padded range -/

/-- A sum over [0, T) with T = N₁ + N₂ is the sum over [0, N₁) plus the sum over [N₁, T), the latter re-indexed
    from 0. -/
theorem sum_fin_split {A : Type*} [AddCommMonoid A] {N₁ N₂ T : Nat} (hT : T = N₁ + N₂) (f : Fin T → A) :
    ∑ k : Fin T, f k
      = ∑ k : Fin N₁, f ⟨k.val, by have := k.isLt; omega⟩ + ∑ k : Fin N₂, f ⟨N₁ + k.val, by have := k.isLt; omega⟩ := by
  subst hT
  rw [Fin.sum_univ_add]
  rfl

/-- A sum over a padded range [0, T) of a family that is zero at and above N ≤ T is the sum over [0, N). -/
theorem sum_fin_padded {A : Type*} [AddCommMonoid A] {N T : Nat} (hNT : N ≤ T) (f : Fin N → A) :
    ∑ k : Fin T, (if hk : k.val < N then f ⟨k.val, hk⟩ else 0) = ∑ k : Fin N, f k := by
  obtain ⟨H, rfl⟩ := Nat.exists_eq_add_of_le hNT
  rw [Fin.sum_univ_add]
  have h2 : ∑ k : Fin H, (if hk : (Fin.natAdd N k).val < N then f ⟨(Fin.natAdd N k).val, hk⟩ else 0) = 0 :=
    Finset.sum_eq_zero fun k _ => dif_neg (by simp)
  rw [h2, add_zero]
  refine Finset.sum_congr rfl fun k _ => ?_
  rw [dif_pos (by simp)]
  rfl

end Cert.LibScatter
-- ==== Proof.RefValue.lean ====
/-
  The reference program's result is the two-pass value of its two inputs.

  The program flattens the image x (64 channels, 1024 rows, 1024 columns) to 64 by 1048576 and the label map sp to
  1048576 labels, pixel (h, w) at flat position h * 1024 + w.  Two accumulating scatters over the flat positions
  give, for every label k below 1024, its size (the sum of one over the pixels labelled k) and, in every channel d,
  its sum (the sum of x d over the pixels labelled k); a sum over the flat positions is the double sum over rows and
  columns, so these are the size and the sum of the specification.  Their quotient, the size replaced by one where
  it is smaller, is the label's mean.  A label below 1024 is not negative read as a signed word, so the program's
  wrap of negative indices leaves it alone, and the gather at a pixel reads the mean of the pixel's own label.  The
  result is the sum, over channels and flat positions, of the squared difference of the image and that mean: the
  triple sum over channels, rows and columns of the specification.
-/
import proofs.«424122_j85469849190579_3_alg».proof.Proof.Gen.ReferenceIdeal.Read
import proofs.«424122_j85469849190579_3_alg».proof.Proof.Spec
import proofs.«424122_j85469849190579_3_alg».proof.Proof.LibScatter
import Idealize.ShloMosaic.Lib.ValueIdx
import Idealize.ShloMosaic.Lib.IdealHost
import Idealize.ShloMosaic.Lib.Pipeline.Value
import Idealize.ShloMosaic.PureOps.Ideal.Laws

noncomputable section

open scoped BigOperators

namespace Cert.RefValue

open Idealize.ShloMosaic Idealize.ShloMosaic.ValueIdx Cert.ReferenceIdeal Cert.ReferenceIdeal.Read Cert.LibScatter

/-- The flat position of the pixel in row h, column w. -/
def pix (h w : Fin 1024) : Fin 1048576 := ⟨h.val * 1024 + w.val, by have := h.isLt; have := w.isLt; omega⟩

/-- The flat positions are the pairs (row, column). -/
def pixEquiv : Fin 1024 × Fin 1024 ≃ Fin 1048576 where
  toFun p := pix p.1 p.2
  invFun n := (⟨n.val / 1024, by have := n.isLt; omega⟩, ⟨n.val % 1024, by have := n.isLt; omega⟩)
  left_inv p := by
    obtain ⟨h, w⟩ := p
    have := h.isLt; have := w.isLt
    refine Prod.ext (Fin.ext ?_) (Fin.ext ?_)
    · show (h.val * 1024 + w.val) / 1024 = h.val; omega
    · show (h.val * 1024 + w.val) % 1024 = w.val; omega
  right_inv n := by
    refine Fin.ext ?_
    show n.val / 1024 * 1024 + n.val % 1024 = n.val
    omega

/-- A sum over the flat positions is the double sum over rows and columns. -/
theorem sum_pix {A : Type*} [AddCommMonoid A] (f : Fin 1048576 → A) :
    ∑ n, f n = ∑ h : Fin 1024, ∑ w : Fin 1024, f (pix h w) := by
  rw [← Equiv.sum_comp pixEquiv f, Fintype.sum_prod_type]
  rfl

section Stages

variable (x0 : (⟨S64x1024x1024, .f32⟩ : BufTy).Contents (Elt Ideal)) (x1 : (⟨S1024x1024, .i32⟩ : BufTy).Contents (Elt Ideal))

/-- The flattened label map at a pixel's flat position is the label map at the pixel. -/
theorem v0_pix (h w : Fin 1024) : val_main_v0 (F := Ideal) x1 (ix1 (pix h w)) = x1 (ix2 h w) := by
  rw [val_main_v0_apply]
  congr 1
  have := h.isLt; have := w.isLt
  funext a
  match a with
  | ⟨0, _⟩ => exact Fin.ext (show (h.val * 1024 + w.val) / 1024 = h.val by omega)
  | ⟨1, _⟩ => exact Fin.ext (show (h.val * 1024 + w.val) % 1024 = w.val by omega)

/-- The flattened image at (channel, flat position) is the image at (channel, row, column). -/
theorem v1_pix (d : Fin 64) (h w : Fin 1024) : val_main_v1 (F := Ideal) x0 (ix2 d (pix h w)) = x0 (ix3 d h w) := by
  rw [val_main_v1_apply]
  congr 1
  have := d.isLt; have := h.isLt; have := w.isLt
  funext a
  match a with
  | ⟨0, _⟩ => exact Fin.ext (show (d.val * 1048576 + (h.val * 1024 + w.val)) / 1048576 = d.val by omega)
  | ⟨1, _⟩ => exact Fin.ext (show (d.val * 1048576 + (h.val * 1024 + w.val)) / 1024 % 1024 = h.val by omega)
  | ⟨2, _⟩ => exact Fin.ext (show (d.val * 1048576 + (h.val * 1024 + w.val)) % 1024 = w.val by omega)

/-! ## The two segment sums -/

/-- The zero-filled vector the sizes are accumulated into. -/
theorem v3_at (k : Fin 1024) : val_main_v3 (F := Ideal) (ix1 k) = (0 : EReal) := by
  rw [val_main_v3_apply, val_main_cst_0_apply]
  exact Ideal.ofBits_zero_f32

/-- The one-filled vector of updates. -/
theorem v2_at (n : Fin 1048576) : val_main_v2 (F := Ideal) (ix1 n) = (1 : EReal) := by
  rw [val_main_v2_apply, val_main_cst_apply]
  exact Ideal.ofBits_one_f32

/-- The zero-filled rows the sums are accumulated into. -/
theorem v7_at (k : Fin 1024) (d : Fin 64) : val_main_v7 (F := Ideal) (ix2 k d) = (0 : EReal) := by
  rw [val_main_v7_apply, val_main_cst_1_apply]
  exact Ideal.ofBits_zero_f32

/-- The one-filled vector the sizes are compared with. -/
theorem v10_at (k : Fin 1024) : val_main_v10 (F := Ideal) (ix1 k) = (1 : EReal) := by
  rw [val_main_v10_apply, val_main_cst_2_apply]
  exact Ideal.ofBits_one_f32

/-- The scatter indices of the sizes, a column of the flattened label map. -/
theorem v4_at (n : Fin 1048576) : val_main_v4 (F := Ideal) x1 (ix2 n (0 : Fin 1)) = val_main_v0 (F := Ideal) x1 (ix1 n) := by
  rw [val_main_v4_apply]
  congr 1
  funext a
  match a with
  | ⟨0, _⟩ => rfl

/-- The scatter indices of the sums, the same column. -/
theorem v8_at (n : Fin 1048576) : val_main_v8 (F := Ideal) x1 (ix2 n (0 : Fin 1)) = val_main_v0 (F := Ideal) x1 (ix1 n) := by
  rw [val_main_v8_apply]
  congr 1
  funext a
  match a with
  | ⟨0, _⟩ => rfl

/-- The transposed flattened image at (flat position, channel). -/
theorem v6_at (n : Fin 1048576) (d : Fin 64) : val_main_v6 (F := Ideal) x0 (ix2 n d) = val_main_v1 (F := Ideal) x0 (ix2 d n) := by
  rw [val_main_v6_apply]
  congr 1
  funext a
  match a with
  | ⟨0, _⟩ => rfl
  | ⟨1, _⟩ => rfl

/-- The accumulated sizes: label k's size. -/
theorem v5_at (k : Fin 1024) : val_main_v5 (F := Ideal) x1 (ix1 k) = Cert.Spec.segCnt x1 k.val := by
  unfold val_main_v5
  rw [scatterAdd_vec_toNat scatter_S1024_S1048576x1_S1048576_n_0_0_1 rfl rfl rfl rfl _ _ _ (by norm_num) k,
    v3_at, zero_add, sum_pix]
  unfold Cert.Spec.segCnt Cert.Spec.rowCnt
  refine Finset.sum_congr rfl fun h _ => Finset.sum_congr rfl fun w _ => ?_
  rw [v4_at, v0_pix, v2_at]

/-- The accumulated sums: label k's sum in channel d. -/
theorem v9_at (k : Fin 1024) (d : Fin 64) : val_main_v9 (F := Ideal) x0 x1 (ix2 k d) = Cert.Spec.segSum x0 x1 d k.val := by
  unfold val_main_v9
  rw [scatterAdd_rows_toNat scatter_S1024x64_S1048576x1_S1048576x64_1_0_0_1 rfl rfl rfl rfl _ _ _ (by norm_num) k d,
    v7_at, zero_add, sum_pix]
  unfold Cert.Spec.segSum Cert.Spec.rowSum
  refine Finset.sum_congr rfl fun h _ => Finset.sum_congr rfl fun w _ => ?_
  rw [v8_at, v0_pix, v6_at, v1_pix]

/-! ## The means -/

/-- The divisor at (label, channel): the larger of the label's size and one. -/
theorem v13_at (k : Fin 1024) (d : Fin 64) :
    val_main_v13 (F := Ideal) x1 (ix2 k d) = max (Cert.Spec.segCnt x1 k.val) 1 := by
  rw [val_main_v13_apply, val_main_v12_apply]
  have e : idx_main_v12 (idx_main_v13 (ix2 k d)) = ix1 k := by
    funext a
    match a with
    | ⟨0, _⟩ => rfl
  rw [e, val_main_v11_apply, v5_at, v10_at]
  rfl

/-- The quotient at (label, channel): the label's mean in that channel. -/
theorem v14_at (k : Fin 1024) (d : Fin 64) :
    val_main_v14 (F := Ideal) x0 x1 (ix2 k d) = Cert.Spec.segMean x0 x1 d k.val := by
  rw [val_main_v14_apply, v9_at, v13_at]
  rfl

/-! ## The pixel's own label as a row index -/

/-- A word below 1024 is not negative read signed. -/
theorem slt_zero_of_lt (a : BitVec 32) (ha : a.toNat < 1024) : IntOp.cmpi .slt a 0#32 = 0#1 := by
  have h : a.slt 0#32 = false := by
    rw [BitVec.slt, BitVec.toInt_eq_toNat_cond]
    simp only [decide_eq_false_iff_not, not_lt]
    rw [if_pos (by omega)]
    simp
  simp only [IntOp.cmpi, h]
  rfl

/-- Under the range hypothesis the wrapped index at a pixel's flat position is the pixel's label. -/
theorem v19_pix (hsp : ∀ i, (x1 i).toNat < 1024) (h w : Fin 1024) :
    val_main_v19 (F := Ideal) x1 (ix1 (pix h w)) = x1 (ix2 h w) := by
  rw [val_main_v19_apply, val_main_v16_apply, val_main_v15_apply, val_main_c_apply, v0_pix,
    slt_zero_of_lt _ (hsp _), select_zero]

/-- The gather's start index at a pixel's flat position. -/
theorem v20_pix (hsp : ∀ i, (x1 i).toNat < 1024) (h w : Fin 1024) :
    val_main_v20 (F := Ideal) x1 (ix2 (pix h w) (0 : Fin 1)) = x1 (ix2 h w) := by
  rw [val_main_v20_apply]
  have e : idx_main_v20 (ix2 (pix h w) (0 : Fin 1)) = ix1 (pix h w) := by
    funext a
    match a with
    | ⟨0, _⟩ => rfl
  rw [e, v19_pix x1 hsp]

/-- The gathered rows: at (flat position, channel) the mean of the pixel's own label. -/
theorem v21_pix (hsp : ∀ i, (x1 i).toNat < 1024) (h w : Fin 1024) (d : Fin 64) :
    val_main_v21 (F := Ideal) x0 x1 (ix2 (pix h w) d) = Cert.Spec.segMean x0 x1 d (x1 (ix2 h w)).toNat := by
  unfold val_main_v21
  have hr : (val_main_v20 (F := Ideal) x1 (ix2 (pix h w) (0 : Fin 1))).toNat < 1024 := by
    rw [v20_pix x1 hsp]; exact hsp _
  rw [gather_rows gather_S1024x64_S1048576x1_S1048576x64_1_0_n_n_0_1_164 rfl rfl rfl rfl rfl _ _ (by norm_num)
    (pix h w) d hr, v14_at]
  show Cert.Spec.segMean x0 x1 d (val_main_v20 (F := Ideal) x1 (ix2 (pix h w) (0 : Fin 1))).toNat = _
  rw [v20_pix x1 hsp]

/-! ## The squared deviations and their total -/

/-- The squared deviation at (channel, flat position). -/
theorem v24_pix (hsp : ∀ i, (x1 i).toNat < 1024) (d : Fin 64) (h w : Fin 1024) :
    val_main_v24 (F := Ideal) x0 x1 (ix2 d (pix h w))
      = (x0 (ix3 d h w) - Cert.Spec.segMean x0 x1 d (x1 (ix2 h w)).toNat)
        * (x0 (ix3 d h w) - Cert.Spec.segMean x0 x1 d (x1 (ix2 h w)).toNat) := by
  have e : idx_main_v22 (ix2 d (pix h w)) = ix2 (pix h w) d := by
    funext a
    match a with
    | ⟨0, _⟩ => rfl
    | ⟨1, _⟩ => rfl
  rw [val_main_v24_apply, val_main_v23_apply, val_main_v22_apply, e, v1_pix, v21_pix x0 x1 hsp]
  rfl

end Stages

/-- The reference program's result is the two-pass value of its inputs. -/
theorem ref_value [Cert.ReferenceIdeal.Facts] (x0 : (⟨Cert.ReferenceIdeal.S64x1024x1024, .f32⟩ : BufTy).Contents (Elt Ideal))
    (x1 : (⟨Cert.ReferenceIdeal.S1024x1024, .i32⟩ : BufTy).Contents (Elt Ideal))
    (hsp : ∀ i, (x1 i).toNat < 1024) :
    Cert.ReferenceIdeal.Read.val_main_v25 (F := Ideal) x0 x1 = fun _ => Cert.Spec.twoPass x0 x1 := by
  funext i
  rw [val_main_v25_apply, val_main_cst_4_apply]
  show Ideal.ofBits .f32 0x00000000#32 + _ = _
  rw [Ideal.ofBits_zero_f32, zero_add, sum_idx2]
  unfold Cert.Spec.twoPass
  refine Finset.sum_congr rfl fun d _ => ?_
  rw [sum_pix]
  exact Finset.sum_congr rfl fun h _ => Finset.sum_congr rfl fun w _ => v24_pix x0 x1 hsp d h w

end Cert.RefValue

end
-- ==== Proof.SegVariance.lean ====
/-
  Squared deviations from per-label means, summed two ways, over the reals.

  Every pixel p carries one label s p below n and, per channel d, a value x d p.  For ANY table mu of one number per
  channel and label (the per-label mean is the case of interest, but nothing here uses that), the sum over channels
  and pixels of (x d p - mu d (s p))^2 expands to

      sum x^2  -  2 * sum_{d,k} mu d k * S d k  +  sum_k C k * sum_d (mu d k)^2 ,

  where S d k is the sum of x d over the pixels labelled k and C k the number of those pixels: a sum over pixels of
  a function of the pixel's label is the sum over labels of that function weighted by the label's pixels, because each
  pixel has exactly one label.
-/
import Mathlib.Algebra.BigOperators.Fin
import Mathlib.Algebra.BigOperators.Ring.Finset
import Mathlib.Algebra.BigOperators.Group.Finset.Basic
import Mathlib.Data.Real.Basic
import Mathlib.Tactic.Ring

open scoped BigOperators

namespace Cert.SegVariance

variable {ι D : Type} [Fintype ι] [Fintype D]

/-- Each pixel has exactly one label: a pixel sum of a(p) * g(label p) is the label sum of g(k) times the sum of a
    over the pixels labelled k. -/
theorem sum_by_label {n : ℕ} (s : ι → ℕ) (hs : ∀ p, s p < n) (a : ι → ℝ) (g : ℕ → ℝ) :
    ∑ p, a p * g (s p) = ∑ k : Fin n, g k.val * ∑ p, (if s p = k.val then a p else 0) := by
  have h : ∀ p, a p * g (s p) = ∑ k : Fin n, (if s p = k.val then a p else 0) * g k.val := by
    intro p
    rw [Finset.sum_eq_single (⟨s p, hs p⟩ : Fin n)]
    · simp
    · intro k _ hk
      rw [if_neg, zero_mul]
      intro e
      exact hk (Fin.ext e.symm)
    · intro e
      exact absurd (Finset.mem_univ _) e
  rw [Finset.sum_congr rfl fun p _ => h p, Finset.sum_comm]
  refine Finset.sum_congr rfl fun k _ => ?_
  rw [Finset.mul_sum]
  exact Finset.sum_congr rfl fun p _ => mul_comm _ _

/-- The expansion of the summed squared deviations, for any table mu. -/
theorem sq_dev_sum {n : ℕ} (s : ι → ℕ) (hs : ∀ p, s p < n) (x : D → ι → ℝ) (μ : D → ℕ → ℝ) :
    ∑ d, ∑ p, (x d p - μ d (s p)) * (x d p - μ d (s p))
      = (∑ d, ∑ p, x d p * x d p
          - 2 * ∑ d, ∑ k : Fin n, μ d k.val * ∑ p, (if s p = k.val then x d p else 0))
        + ∑ k : Fin n, (∑ p, (if s p = k.val then (1 : ℝ) else 0)) * ∑ d, μ d k.val * μ d k.val := by
  have h1 : ∀ d, ∑ p, (x d p - μ d (s p)) * (x d p - μ d (s p))
      = (∑ p, x d p * x d p - 2 * ∑ p, x d p * μ d (s p)) + ∑ p, 1 * (μ d (s p) * μ d (s p)) := by
    intro d
    rw [Finset.mul_sum, ← Finset.sum_sub_distrib, ← Finset.sum_add_distrib]
    exact Finset.sum_congr rfl fun p _ => by ring
  rw [Finset.sum_congr rfl fun d _ => h1 d, Finset.sum_add_distrib, Finset.sum_sub_distrib, ← Finset.mul_sum]
  congr 1
  · congr 2
    exact Finset.sum_congr rfl fun d _ => sum_by_label s hs (fun p => x d p) (μ d)
  · rw [Finset.sum_congr rfl fun d _ => sum_by_label s hs (fun _ => (1 : ℝ)) (fun k => μ d k * μ d k), Finset.sum_comm]
    refine Finset.sum_congr rfl fun k _ => ?_
    rw [Finset.mul_sum]
    exact Finset.sum_congr rfl fun d _ => mul_comm _ _

end Cert.SegVariance
-- ==== Proof.Moments.lean ====
/-
  The one-pass and the two-pass value agree on real inputs.

  When every entry of the image is a real number, each quantity of the specification is the image of a real number
  under the inclusion of the reals in the extended reals: a finite sum of reals is real, a label's size is a sum of
  zeros and ones, the larger of a real and one is a real that is at least one, and dividing by a nonzero real is
  multiplying by its reciprocal.  So both values are inclusions of real expressions, and between those the equality is
  the expansion of the summed squared deviations from a table of per-label numbers, read with the pixels being the
  pairs (row, column) and the table being the per-label means.
-/
import proofs.«424122_j85469849190579_3_alg».proof.Proof.Spec
import proofs.«424122_j85469849190579_3_alg».proof.Proof.SegVariance
import Mathlib.Data.EReal.Basic
import Mathlib.Data.EReal.Operations
import Mathlib.Data.EReal.Inv
import Mathlib.Algebra.BigOperators.Fin
import Mathlib.Algebra.BigOperators.Group.Finset.Basic
import Mathlib.Data.Fintype.BigOperators
import Mathlib.Data.Real.Basic

noncomputable section

open scoped BigOperators

namespace Cert.Moments

open Idealize.ShloMosaic Idealize.ShloMosaic.ValueIdx Cert.Spec

/-! ### The inclusion of the reals commutes with finite sums and with the larger-of-two -/

/-- The inclusion of a finite sum of reals is the sum of the inclusions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The larger of an included real and one is the inclusion of the larger of the real and one. -/
theorem max_coe_one (a : ℝ) : max ((a : ℝ) : EReal) 1 = ((max a 1 : ℝ) : EReal) := by
  rcases le_total a 1 with h | h
  · rw [max_eq_right h, max_eq_right (by exact_mod_cast h), EReal.coe_one]
  · rw [max_eq_left h, max_eq_left (by exact_mod_cast h)]

/-- The inclusion of the real number two is the extended real two. -/
theorem coe_two : ((2 : ℝ) : EReal) = 2 := by norm_cast

/-! ### The real twins of the specification's quantities -/

variable (xr : SX.Idx → ℝ) (sp : SP.Idx → BitVec 32)

/-- Row h's share of label k's sum in channel d, as a real. -/
def rowSumR (d : Fin 64) (k : ℕ) (h : Fin 1024) : ℝ :=
  ∑ w : Fin 1024, if (sp (ix2 h w)).toNat = k then xr (ix3 d h w) else 0

/-- Row h's share of label k's size, as a real. -/
def rowCntR (k : ℕ) (h : Fin 1024) : ℝ :=
  ∑ w : Fin 1024, if (sp (ix2 h w)).toNat = k then (1 : ℝ) else 0

/-- Row h's share of the sum of squares, as a real. -/
def rowSqR (h : Fin 1024) : ℝ :=
  ∑ d : Fin 64, ∑ w : Fin 1024, xr (ix3 d h w) * xr (ix3 d h w)

/-- Label k's sum in channel d, as a real. -/
def segSumR (d : Fin 64) (k : ℕ) : ℝ := ∑ h : Fin 1024, rowSumR xr sp d k h

/-- Label k's size, as a real. -/
def segCntR (k : ℕ) : ℝ := ∑ h : Fin 1024, rowCntR sp k h

/-- The sum of all squares, as a real. -/
def sumSqR : ℝ := ∑ h : Fin 1024, rowSqR xr h

/-- Label k's mean in channel d, as a real: the sum times the reciprocal of the larger of the size and one. -/
def segMeanR (d : Fin 64) (k : ℕ) : ℝ := segSumR xr sp d k * (1 / max (segCntR sp k) 1)

/-- The one-pass value, as a real. -/
def onePassR : ℝ :=
  (sumSqR xr - 2 * ∑ d : Fin 64, ∑ k : Fin 1024, segMeanR xr sp d k.val * segSumR xr sp d k.val)
    + ∑ k : Fin 1024, segCntR sp k.val * ∑ d : Fin 64, segMeanR xr sp d k.val * segMeanR xr sp d k.val

/-- The two-pass value, as a real. -/
def twoPassR : ℝ :=
  ∑ d : Fin 64, ∑ h : Fin 1024, ∑ w : Fin 1024,
    (xr (ix3 d h w) - segMeanR xr sp d (sp (ix2 h w)).toNat)
      * (xr (ix3 d h w) - segMeanR xr sp d (sp (ix2 h w)).toNat)

/-! ### Each quantity of the specification, on real inputs, is the inclusion of its twin -/

theorem rowSum_coe (d : Fin 64) (k : ℕ) (h : Fin 1024) :
    rowSum (fun i => ((xr i : ℝ) : EReal)) sp d k h = ((rowSumR xr sp d k h : ℝ) : EReal) := by
  unfold rowSum rowSumR
  rw [coe_sum]
  refine Finset.sum_congr rfl fun w _ => ?_
  split_ifs
  · rfl
  · exact EReal.coe_zero.symm

theorem rowCnt_coe (k : ℕ) (h : Fin 1024) :
    rowCnt sp k h = ((rowCntR sp k h : ℝ) : EReal) := by
  unfold rowCnt rowCntR
  rw [coe_sum]
  refine Finset.sum_congr rfl fun w _ => ?_
  split_ifs
  · exact EReal.coe_one.symm
  · exact EReal.coe_zero.symm

theorem rowSq_coe (h : Fin 1024) :
    rowSq (fun i => ((xr i : ℝ) : EReal)) h = ((rowSqR xr h : ℝ) : EReal) := by
  unfold rowSq rowSqR
  rw [coe_sum]
  refine Finset.sum_congr rfl fun d _ => ?_
  rw [coe_sum]
  refine Finset.sum_congr rfl fun w _ => ?_
  rw [EReal.coe_mul]

theorem segSum_coe (d : Fin 64) (k : ℕ) :
    segSum (fun i => ((xr i : ℝ) : EReal)) sp d k = ((segSumR xr sp d k : ℝ) : EReal) := by
  unfold segSum segSumR
  rw [coe_sum]
  exact Finset.sum_congr rfl fun h _ => rowSum_coe xr sp d k h

theorem segCnt_coe (k : ℕ) : segCnt sp k = ((segCntR sp k : ℝ) : EReal) := by
  unfold segCnt segCntR
  rw [coe_sum]
  exact Finset.sum_congr rfl fun h _ => rowCnt_coe sp k h

theorem sumSq_coe : sumSq (fun i => ((xr i : ℝ) : EReal)) = ((sumSqR xr : ℝ) : EReal) := by
  unfold sumSq sumSqR
  rw [coe_sum]
  exact Finset.sum_congr rfl fun h _ => rowSq_coe xr h

/-- The larger of a label's size and one is at least one, so it is not zero. -/
theorem max_segCntR_ne_zero (k : ℕ) : max (segCntR sp k) 1 ≠ 0 :=
  (lt_of_lt_of_le one_pos (le_max_right _ _)).ne'

theorem segMean_coe (d : Fin 64) (k : ℕ) :
    segMean (fun i => ((xr i : ℝ) : EReal)) sp d k = ((segMeanR xr sp d k : ℝ) : EReal) := by
  unfold segMean segMeanR
  rw [segSum_coe, segCnt_coe, max_coe_one, Ideal.div_coe (max_segCntR_ne_zero sp k), EReal.coe_mul]

/-! ### Both values are inclusions of reals -/

theorem onePass_coe :
    onePass (fun i => ((xr i : ℝ) : EReal)) sp = ((onePassR xr sp : ℝ) : EReal) := by
  unfold onePass onePassR
  simp only [segMean_coe, segSum_coe, segCnt_coe, sumSq_coe, EReal.coe_add, EReal.coe_sub, EReal.coe_mul,
    coe_sum, coe_two]

theorem twoPass_coe :
    twoPass (fun i => ((xr i : ℝ) : EReal)) sp = ((twoPassR xr sp : ℝ) : EReal) := by
  unfold twoPass twoPassR
  simp only [segMean_coe]
  rw [coe_sum]
  refine Finset.sum_congr rfl fun d _ => ?_
  rw [coe_sum]
  refine Finset.sum_congr rfl fun h _ => ?_
  rw [coe_sum]
  refine Finset.sum_congr rfl fun w _ => ?_
  rw [EReal.coe_mul, EReal.coe_sub]

/-! ### The real identity -/

/-- The sum of all squares, channel outermost. -/
theorem sumSqR_eq :
    sumSqR xr = ∑ d : Fin 64, ∑ h : Fin 1024, ∑ w : Fin 1024, xr (ix3 d h w) * xr (ix3 d h w) := by
  unfold sumSqR rowSqR
  exact Finset.sum_comm

/-- Over the reals the one-pass value is the two-pass value: the expansion of the squared deviations, the pixels
    being the pairs (row, column) and the table the per-label means. -/
theorem onePassR_eq_twoPassR (hsp : ∀ i, (sp i).toNat < 1024) : onePassR xr sp = twoPassR xr sp := by
  have key := Cert.SegVariance.sq_dev_sum (ι := Fin 1024 × Fin 1024) (D := Fin 64) (n := 1024)
    (fun p => (sp (ix2 p.1 p.2)).toNat) (fun p => hsp _)
    (fun d p => xr (ix3 d p.1 p.2)) (segMeanR xr sp)
  simp only [Fintype.sum_prod_type] at key
  unfold onePassR twoPassR
  rw [sumSqR_eq]
  exact key.symm

/-- On real inputs the one-pass value and the two-pass value are the same extended real. -/
theorem onePass_eq_twoPass (xr : Cert.Spec.SX.Idx → ℝ) (sp : Cert.Spec.SP.Idx → BitVec 32)
    (hsp : ∀ i, (sp i).toNat < 1024) :
    Cert.Spec.onePass (fun i => ((xr i : ℝ) : EReal)) sp
      = Cert.Spec.twoPass (fun i => ((xr i : ℝ) : EReal)) sp := by
  rw [onePass_coe, twoPass_coe, onePassR_eq_twoPassR xr sp hsp]

end Cert.Moments

end
-- ==== Proof.PreDecode.lean ====
/-
  What the precondition says of the two inputs.

  The precondition is the conjunction of three statements, each a conjunction over all positions of an array:
    |x| < +∞ at every entry of the image x (64 channels of 1024 by 1024 pixels),
    0 ≤ sp and sp < 1024, both read signed, at every entry of the label map sp (1024 by 1024 words of 32 bits).
  An extended real whose absolute value max(x, -x) lies below +∞ is neither +∞ nor -∞, hence a real number; so the
  image is the embedding of a real-valued image.  A 32-bit word w with 0 ≤ w < 1024 as a signed integer has its sign
  bit clear, so its unsigned value equals its signed value and is below 1024.
-/
import proofs.«424122_j85469849190579_3_alg».proof.Pre_finite_inputs
import proofs.«424122_j85469849190579_3_alg».proof.Proof.Spec
import Idealize.ShloMosaic.Lib.ReduceAll
import Idealize.ShloMosaic.Lib.StableHlo.Predicate
import Idealize.ShloMosaic.Lib.ValueIdx
import Idealize.ShloMosaic.PureOps.Ideal

noncomputable section

namespace Cert.PreDecode

open Idealize.ShloMosaic Idealize.ShloMosaic.ValueIdx
open Cert.Pre_finite_inputs

/-- A rank-0 array has exactly one position. -/
instance : Subsingleton S_.Idx := ⟨fun a b => funext fun d => d.elim0⟩

/-- The 32-bit pattern with exponent field all ones and fraction zero, sign clear, denotes +∞. -/
theorem ofBits_inf : Ideal.ofBits .f32 0x7F800000#32 = (⊤ : EReal) := by simp [Ideal.ofBits, Ideal.ieee]

/-- If max(x, -x) < +∞ then x is a real: x = +∞ gives max = +∞, and x = -∞ gives -x = +∞. -/
theorem exists_real_of_abs_lt_top (x : EReal) (h : max x (-x) < ⊤) : ∃ r : ℝ, x = (r : EReal) := by
  induction x using EReal.rec with
  | bot => simp at h
  | coe r => exact ⟨r, rfl⟩
  | top => simp at h

/-- A 32-bit word in [0, 1024) as a signed integer is below 1024 as a natural number: a word w reads signed as
    w when 2 w < 2^32 and as w - 2^32 otherwise, and the second case is negative. -/
theorem toNat_lt_of_signed (w : BitVec 32) (h0 : (0#32 : BitVec 32).toInt ≤ w.toInt)
    (h1 : w.toInt < (1024#32 : BitVec 32).toInt) : w.toNat < 1024 := by
  have e0 : (0#32 : BitVec 32).toInt = 0 := by decide
  have e1 : (1024#32 : BitVec 32).toInt = 1024 := by decide
  rw [e0] at h0
  rw [e1] at h1
  have hw := w.isLt
  rw [BitVec.toInt_eq_toNat_cond] at h0 h1
  split at h0 <;> omega

/-- The precondition decoded: the image is real-valued and every label is below 1024. -/
theorem decode [Facts] (x0 : FVec Ideal S64x1024x1024 .f32) (x1 : IVec S1024x1024 32)
    (h : fn (F := Ideal) x0 x1 = fun _ => 1#1) :
    (∃ xr : Cert.Spec.SX.Idx → ℝ, x0 = fun i => ((xr i : ℝ) : EReal)) ∧ ∀ i, (x1 i).toNat < 1024 := by
  -- the result has one position; there the value is the conjunction of the three "for all" statements
  have e := congrFun h ix0
  dsimp only [fn] at e
  simp only [andi] at e
  rw [IntOp.andi_eq_one, IntOp.andi_eq_one] at e
  obtain ⟨⟨hx, hge⟩, hlt⟩ := e
  -- every entry of the image has |x| < +∞, so it is a real
  have hfin : ∀ i, ∃ r : ℝ, x0 i = (r : EReal) := fun i => by
    have hi : Ideal.cmp .olt (max (x0 i) (-(x0 i))) (Ideal.ofBits .f32 0x7F800000#32) = 1#1 :=
      Host.reduce_andi_all _ _ _ _ _ hx i
    rw [ofBits_inf] at hi
    unfold Ideal.cmp at hi
    rw [StableHlo.Predicate.ofBool_eq_one_iff, decide_eq_true_eq] at hi
    exact exists_real_of_abs_lt_top _ hi
  choose xr hxr using hfin
  refine ⟨⟨xr, funext hxr⟩, fun i => ?_⟩
  -- every label is at least 0 and below 1024, read signed
  have h0 : IntOp.cmpi .sge (x1 i) (0#32) = 1#1 := Host.reduce_andi_all _ _ _ _ _ hge i
  have h1 : IntOp.cmpi .slt (x1 i) (1024#32) = 1#1 := Host.reduce_andi_all _ _ _ _ _ hlt i
  exact toNat_lt_of_signed _ (IntOp.cmpi_sge.1 h0) (IntOp.cmpi_slt.1 h1)

end Cert.PreDecode

end
-- ==== Proof.lean ====
/-
  The certificate: a one-pass computation of the summed squared deviations from per-label means equals the two-pass
  one.

  Both programs take a 64-channel image and a map giving each pixel one of 1024 labels.  The reference forms each
  label's mean per channel (a segment sum over a segment size, an empty label dividing by one), subtracts from every
  pixel its own label's mean and sums the squares.  The kernel makes ONE pass over the image: its grid walks the
  rows eight at a time in two independent halves, accumulating per half the per-label sums (each row's values times
  the row's label-equals-k table), the per-label sizes (a row of ones times the same table) and the sum of squares;
  the host adds the halves, forms the means and returns
      sum x^2 - 2 * sum_{d,k} mean * sum + sum_k size * sum_d mean^2 .
  For finite inputs and labels in range the two agree: expanding (x - mean)^2 and grouping the pixels by label turns
  the cross term into mean * (label sum) and the square term into size * mean^2, whatever the table of means is.

  The kernel's value is read off its run point by point (KPieces, RowSums, RowCounts, KBlocks, KInvariant, KFinal,
  KRun, KTailApply, KValue); the reference's off its run operation by operation (RefValue); the precondition gives
  real entries and labels below 1024 (PreDecode); the identity is proved over the reals and lifted (SegVariance,
  Moments).  The label range is needed: outside it the reference's gather clamps while the kernel's label table has
  no matching row, and the two differ.
-/
import proofs.«424122_j85469849190579_3_alg».proof.Defs
import proofs.«424122_j85469849190579_3_alg».proof.Proof.Gen.Kernel
import proofs.«424122_j85469849190579_3_alg».proof.Proof.Gen.Kernel.Skeleton
import proofs.«424122_j85469849190579_3_alg».proof.Proof.Gen.Kernel.Launch
import proofs.«424122_j85469849190579_3_alg».proof.Proof.Gen.Kernel.Points
import proofs.«424122_j85469849190579_3_alg».proof.Proof.Gen.Kernel.Frame
import proofs.«424122_j85469849190579_3_alg».proof.Proof.Gen.KernelIdeal
import proofs.«424122_j85469849190579_3_alg».proof.Proof.Gen.KernelIdeal.Skeleton
import proofs.«424122_j85469849190579_3_alg».proof.Proof.Gen.KernelIdeal.Launch
import proofs.«424122_j85469849190579_3_alg».proof.Proof.Gen.KernelIdeal.Points
import proofs.«424122_j85469849190579_3_alg».proof.Proof.Gen.KernelIdeal.Frame
import proofs.«424122_j85469849190579_3_alg».proof.Proof.Gen.ReferenceIdeal
import proofs.«424122_j85469849190579_3_alg».proof.Proof.Gen.Pre_finite_inputs
import proofs.«424122_j85469849190579_3_alg».proof.Proof.Gen.ReferenceIdeal.Run
import proofs.«424122_j85469849190579_3_alg».proof.Proof.Gen.ReferenceIdeal.Read
import proofs.«424122_j85469849190579_3_alg».proof.Proof.KValue
import proofs.«424122_j85469849190579_3_alg».proof.Proof.RefValue
import proofs.«424122_j85469849190579_3_alg».proof.Proof.Moments
import proofs.«424122_j85469849190579_3_alg».proof.Proof.PreDecode
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, real and with labels in range, the kernel ends at the one-pass value and the reference
    at the two-pass value, and these are equal. -/
theorem algebraic : Cert.algebraic_KernelIdeal_ReferenceIdeal := by
  intro m ρ m' ρ' hpre hagree
  refine ⟨fun c => fun _ => Cert.Spec.onePass
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Value.run m ρ, ?_⟩
  refine (θ_run Cert.ReferenceIdeal.defs _ _).mono (fun _ h c => ?_)
    (Cert.ReferenceIdeal.Value.run (F := Ideal) m' ρ')
  refine ⟨(h c).1.trans ?_, (h c).2⟩
  beta_reduce
  obtain ⟨⟨xr, hx⟩, hsp⟩ := Cert.PreDecode.decode _ _ (hpre c)
  rw [Cert.ReferenceIdeal.Read.val_main_v25_eq, (hagree c).1, (hagree c).2, Cert.RefValue.ref_value _ _ hsp, hx,
    Cert.Moments.onePass_eq_twoPass xr _ hsp]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
